-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg7 : FVec F S64x7 .f32) (main_arg8 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x7 .f32 := Host.absf main_arg7
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  let main_v24 : FVec F S7 .f32 := Host.absf main_arg8
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S262144x128 .f32) (main_arg1 : FVec F S4096x128 .f32) (main_arg2 : IVec S262144 1) (main_arg3 : IVec S262144 32) (main_arg4 : IVec S4096x8x7 1) (main_arg5 : FVec F S256x64 .f32) (main_arg6 : FVec F S64 .f32) (main_arg7 : FVec F S64x7 .f32) (main_arg8 : FVec F S7 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S256x64 .f32 := Host.absf main_arg5
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4095 : Shape := ⟨1, ![4095]⟩
abbrev S128x64 : Shape := ⟨2, ![128, 64]⟩
abbrev S4096x64 : Shape := ⟨2, ![4096, 64]⟩
abbrev S262144x64 : Shape := ⟨2, ![262144, 64]⟩
abbrev S1x64 : Shape := ⟨2, ![1, 64]⟩
abbrev S1x7 : Shape := ⟨2, ![1, 7]⟩
abbrev S262144x7 : Shape := ⟨2, ![262144, 7]⟩
abbrev S4096x7 : Shape := ⟨2, ![4096, 7]⟩
abbrev S4096x9x7 : Shape := ⟨3, ![4096, 9, 7]⟩
abbrev S262144x2 : Shape := ⟨2, ![262144, 2]⟩
abbrev S4096x56 : Shape := ⟨2, ![4096, 56]⟩

abbrev nBuf : Space → Nat
  | .hbm => 89
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S262144, .i32⟩
  | .hbm, ⟨4, _⟩ => ⟨S4096x8x7, .i1⟩
  | .hbm, ⟨5, _⟩ => ⟨S256x64, .f32⟩
  | .hbm, ⟨6, _⟩ => ⟨S64, .f32⟩
  | .hbm, ⟨7, _⟩ => ⟨S64x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S_, .i32⟩
  | .hbm, ⟨14, _⟩ => ⟨S4096, .i32⟩
  | .hbm, ⟨15, _⟩ => ⟨S262144x1, .i32⟩
  | .hbm, ⟨16, _⟩ => ⟨S4096, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4095, .i32⟩
  | .hbm, ⟨23, _⟩ => ⟨S4096, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S128x64, .f32⟩
  | .hbm, ⟨42, _⟩ => ⟨S128x64, .f32⟩
  | .hbm, ⟨43, _⟩ => ⟨S4096x64, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x64, .f32⟩
  | .hbm, ⟨53, _⟩ => ⟨S1x64, .f32⟩
  | .hbm, ⟨54, _⟩ => ⟨S1x7, .f32⟩
  | .hbm, ⟨55, _⟩ => ⟨S262144x7, .f32⟩
  | .hbm, ⟨56, _⟩ => ⟨S_, .f32⟩
  | .hbm, ⟨57, _⟩ => ⟨S4096x9x7, .f32⟩
  | .hbm, ⟨58, _⟩ => ⟨S_, .i32⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S_, .i32⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S_, .i32⟩
  | .hbm, ⟨74, _⟩ => ⟨S262144, .i32⟩
  | .hbm, ⟨75, _⟩ => ⟨S262144, .i1⟩
  | .hbm, ⟨76, _⟩ => ⟨S_, .i32⟩
  | .hbm, ⟨77, _⟩ => ⟨S262144, .i32⟩
  | .hbm, ⟨78, _⟩ => ⟨S262144, .i32⟩
  | .hbm, ⟨79, _⟩ => ⟨S262144, .i32⟩
  | .hbm, ⟨80, _⟩ => ⟨S262144x1, .i32⟩
  | .hbm, ⟨81, _⟩ => ⟨S262144x1, .i32⟩
  | .hbm, ⟨82, _⟩ => ⟨S262144x2, .i32⟩
  | .hbm, ⟨83, _⟩ => ⟨S4096x9x7, .f32⟩
  | .hbm, ⟨84, _⟩ => ⟨S4096x8x7, .f32⟩
  | .hbm, ⟨85, _⟩ => ⟨S_, .f32⟩
  | .hbm, ⟨86, _⟩ => ⟨S4096x8x7, .f32⟩
  | .hbm, ⟨87, _⟩ => ⟨S4096x8x7, .f32⟩
  | .hbm, ⟨88, _⟩ => ⟨S4096x56, .f32⟩
  | .local _ .vmem, ⟨0, _⟩ => ⟨S4096x128, .f32⟩
  | .local _ .vmem, ⟨1, _⟩ => ⟨S4096x128, .f32⟩
  | .local _ .vmem, ⟨2, _⟩ => ⟨S4096x64, .f32⟩
  | .local _ .vmem, ⟨3, _⟩ => ⟨S4096x64, .f32⟩
  | .local _ .vmem, ⟨4, _⟩ => ⟨S128x64, .f32⟩
  | .local _ .vmem, ⟨5, _⟩ => ⟨S1x64, .f32⟩
  | .local _ .vmem, ⟨6, _⟩ => ⟨S64x7, .f32⟩
  | .local _ .vmem, ⟨7, _⟩ => ⟨S1x7, .f32⟩
  | .local _ .vmem, ⟨8, _⟩ => ⟨S4096x7, .f32⟩
  | .local _ .vmem, ⟨9, _⟩ => ⟨S4096x7, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_call1_call0_c : Ref sig .tc := ⟨.hbm, 19, rfl⟩
abbrev main_call1_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst : Ref sig .tc := ⟨.hbm, 56, rfl⟩
abbrev main_v35 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_c_8 : Ref sig .tc := ⟨.hbm, 62, rfl⟩
abbrev main_call3_v0 : Ref sig .tc := ⟨.hbm, 63, rfl⟩
abbrev main_call3_v1 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_call4_v0 : Ref sig .tc := ⟨.hbm, 86, rfl⟩
abbrev main_v53 : Ref sig .tc := ⟨.hbm, 87, rfl⟩
abbrev main_v54 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  reduceWindows_S4096_S4096_w4096s1p4095_0 : S4096.ReduceWindows (![4096] : Fin 1 → Nat) ![1] ![4095] ![0] S4096
  slices_S4096_S4095_0 : S4096.Slices ![0] S4095
  concatenates_S1_S4095_S4096_d0 : Shape.Concatenates [S1, S4095] S4096 0
  bcast_S_S262144 : S_.BroadcastsInDim S262144 (![] : Fin 0 → Fin S262144.rank)
  slices_S256x64_S128x64_0_0 : S256x64.Slices ![0, 0] S128x64
  slices_S256x64_S128x64_128_0 : S256x64.Slices ![128, 0] S128x64
  shapeCasts_S64_S1x64 : S64.ShapeCasts S1x64
  shapeCasts_S7_S1x7 : S7.ShapeCasts S1x7
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4096x7 : S1x7.Broadcasts S4096x7
  inb_S4096x7_S4096x7_0_0 : ∀ a, (![0, 0] : Fin 2 → Nat) a + S4096x7.size a ≤ S4096x7.size a
  h_S4096x7 : 0 < S4096x7.numel
  bcast_S_S4096x9x7 : S_.BroadcastsInDim S4096x9x7 (![] : Fin 0 → Fin S4096x9x7.rank)
  concatenates_S262144x1_S262144x1_S262144x2_d1 : Shape.Concatenates [S262144x1, S262144x1] S262144x2 1
  slices_S4096x9x7_S4096x8x7_0_0_0 : S4096x9x7.Slices ![0, 0, 0] S4096x8x7
  bcast_S_S4096x8x7 : S_.BroadcastsInDim S4096x8x7 (![] : Fin 0 → Fin S4096x8x7.rank)
  shapeCasts_S4096x8x7_S4096x56 : S4096x8x7.ShapeCasts S4096x56
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  dot_S4096x128_S128x64_S4096x64_1_0_0_1_n_n_wf : DotDims.WF S4096x128 S128x64 S4096x64 [1] [0] [0] [1] [] []
  gather_S4096x64_S262144x1_S262144x64_1_0_n_n_0_1_164_wf : GatherDims.WF S4096x64 S262144x1 S262144x64 [1] [0] [] [0] [] 1 ![1, 64]
  dot_S4096x64_S64x7_S4096x7_1_0_0_1_n_n_wf : DotDims.WF S4096x64 S64x7 S4096x7 [1] [0] [0] [1] [] []
  scatter_S4096x9x7_S262144x2_S262144x7_1_01_01_1_wf : ScatterDims.WF S4096x9x7 S262144x2 S262144x7 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x7.size a ≤ S64x7.size a
  hwx0_4 : ∀ i : grid0.Coords, EltTy.bits .f32 = 32 ∨ (Rect.block (s := S64x7) S64x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x7.size a ≤ S262144x7.size a
  hwx0_6 : ∀ i : grid0.Coords, EltTy.bits .f32 = 32 ∨ (Rect.block (s := S262144x7) S4096x7.size (cc0_transform_6 i) (hinb0_6 i)).WholeWords (EltTy.packing .f32)

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S4096x64_S262144x1_S262144x64_1_0_n_n_0_1_164 : GatherDims S4096x64 S262144x1 S262144x64 where
  offsetDims := [1]
  collapsedSliceDims := [0]
  operandBatchingDims := []
  startIndicesBatchingDims := []
  startIndexMap := [0]
  indexVectorDim := 1
  sliceSizes := ![1, 64]
  wf := gather_S4096x64_S262144x1_S262144x64_1_0_n_n_0_1_164_wf
def dot_S4096x64_S64x7_S4096x7_1_0_0_1_n_n : DotDims S4096x64 S64x7 S4096x7 where
  lhsContracting := [1]
  rhsContracting := [0]
  lhsNonContracting := [0]
  rhsNonContracting := [1]
  lhsBatch := []
  rhsBatch := []
  wf := dot_S4096x64_S64x7_S4096x7_1_0_0_1_n_n_wf
def scatter_S4096x9x7_S262144x2_S262144x7_1_01_01_1 : ScatterDims S4096x9x7 S262144x2 S262144x7 where
  updateWindowDims := [1]
  insertedWindowDims := [0, 1]
  scatterDimsToOperandDims := [0, 1]
  indexVectorDim := 1
  wf := scatter_S4096x9x7_S262144x2_S262144x7_1_01_01_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S4096x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4095 : Shape := ⟨1, ![4095]⟩
abbrev S128x64 : Shape := ⟨2, ![128, 64]⟩
abbrev S262144x64 : Shape := ⟨2, ![262144, 64]⟩
abbrev S1x64 : Shape := ⟨2, ![1, 64]⟩
abbrev S262144x7 : Shape := ⟨2, ![262144, 7]⟩
abbrev S1x7 : Shape := ⟨2, ![1, 7]⟩
abbrev S4096x9x7 : Shape := ⟨3, ![4096, 9, 7]⟩
abbrev S262144x2 : Shape := ⟨2, ![262144, 2]⟩
abbrev S4096x56 : Shape := ⟨2, ![4096, 56]⟩

abbrev nBuf : Space → Nat
  | .hbm => 98
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S262144, .i32⟩
  | .hbm, ⟨4, _⟩ => ⟨S4096x8x7, .i1⟩
  | .hbm, ⟨5, _⟩ => ⟨S256x64, .f32⟩
  | .hbm, ⟨6, _⟩ => ⟨S64, .f32⟩
  | .hbm, ⟨7, _⟩ => ⟨S64x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S_, .i32⟩
  | .hbm, ⟨14, _⟩ => ⟨S4096, .i32⟩
  | .hbm, ⟨15, _⟩ => ⟨S262144x1, .i32⟩
  | .hbm, ⟨16, _⟩ => ⟨S4096, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4095, .i32⟩
  | .hbm, ⟨23, _⟩ => ⟨S4096, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x128, .f32⟩
  | .hbm, ⟨50, _⟩ => ⟨S128x64, .f32⟩
  | .hbm, ⟨51, _⟩ => ⟨S262144x64, .f32⟩
  | .hbm, ⟨52, _⟩ => ⟨S128x64, .f32⟩
  | .hbm, ⟨53, _⟩ => ⟨S262144x64, .f32⟩
  | .hbm, ⟨54, _⟩ => ⟨S262144x64, .f32⟩
  | .hbm, ⟨55, _⟩ => ⟨S1x64, .f32⟩
  | .hbm, ⟨56, _⟩ => ⟨S262144x64, .f32⟩
  | .hbm, ⟨57, _⟩ => ⟨S262144x64, .f32⟩
  | .hbm, ⟨58, _⟩ => ⟨S_, .f32⟩
  | .hbm, ⟨59, _⟩ => ⟨S262144x64, .f32⟩
  | .hbm, ⟨60, _⟩ => ⟨S262144x64, .f32⟩
  | .hbm, ⟨61, _⟩ => ⟨S262144x7, .f32⟩
  | .hbm, ⟨62, _⟩ => ⟨S1x7, .f32⟩
  | .hbm, ⟨63, _⟩ => ⟨S262144x7, .f32⟩
  | .hbm, ⟨64, _⟩ => ⟨S262144x7, .f32⟩
  | .hbm, ⟨65, _⟩ => ⟨S_, .f32⟩
  | .hbm, ⟨66, _⟩ => ⟨S4096x9x7, .f32⟩
  | .hbm, ⟨67, _⟩ => ⟨S_, .i32⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S_, .i32⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x1, .i32⟩
  | .hbm, ⟨91, _⟩ => ⟨S262144x2, .i32⟩
  | .hbm, ⟨92, _⟩ => ⟨S4096x9x7, .f32⟩
  | .hbm, ⟨93, _⟩ => ⟨S4096x8x7, .f32⟩
  | .hbm, ⟨94, _⟩ => ⟨S_, .f32⟩
  | .hbm, ⟨95, _⟩ => ⟨S4096x8x7, .f32⟩
  | .hbm, ⟨96, _⟩ => ⟨S4096x8x7, .f32⟩
  | .hbm, ⟨97, _⟩ => ⟨S4096x56, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_call1_call0_c : Ref sig .tc := ⟨.hbm, 19, rfl⟩
abbrev main_call1_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_cst : Ref sig .tc := ⟨.hbm, 58, rfl⟩
abbrev main_call2_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst : Ref sig .tc := ⟨.hbm, 65, rfl⟩
abbrev main_v42 : Ref sig .tc := ⟨.hbm, 66, rfl⟩
abbrev main_c_7 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_c_8 : Ref sig .tc := ⟨.hbm, 71, rfl⟩
abbrev main_call4_v0 : Ref sig .tc := ⟨.hbm, 72, rfl⟩
abbrev main_call4_v1 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_call5_v0 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  reduceWindows_S4096_S4096_w4096s1p4095_0 : S4096.ReduceWindows (![4096] : Fin 1 → Nat) ![1] ![4095] ![0] S4096
  slices_S4096_S4095_0 : S4096.Slices ![0] S4095
  concatenates_S1_S4095_S4096_d0 : Shape.Concatenates [S1, S4095] S4096 0
  bcast_S_S262144 : S_.BroadcastsInDim S262144 (![] : Fin 0 → Fin S262144.rank)
  slices_S256x64_S128x64_0_0 : S256x64.Slices ![0, 0] S128x64
  slices_S256x64_S128x64_128_0 : S256x64.Slices ![128, 0] S128x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  bcast_S_S4096x9x7 : S_.BroadcastsInDim S4096x9x7 (![] : Fin 0 → Fin S4096x9x7.rank)
  concatenates_S262144x1_S262144x1_S262144x2_d1 : Shape.Concatenates [S262144x1, S262144x1] S262144x2 1
  slices_S4096x9x7_S4096x8x7_0_0_0 : S4096x9x7.Slices ![0, 0, 0] S4096x8x7
  bcast_S_S4096x8x7 : S_.BroadcastsInDim S4096x8x7 (![] : Fin 0 → Fin S4096x8x7.rank)
  shapeCasts_S4096x8x7_S4096x56 : S4096x8x7.ShapeCasts S4096x56
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  gather_S4096x128_S262144x1_S262144x128_1_0_n_n_0_1_1128_wf : GatherDims.WF S4096x128 S262144x1 S262144x128 [1] [0] [] [0] [] 1 ![1, 128]
  dot_S262144x128_S128x64_S262144x64_1_0_0_1_n_n_wf : DotDims.WF S262144x128 S128x64 S262144x64 [1] [0] [0] [1] [] []
  dot_S262144x64_S64x7_S262144x7_1_0_0_1_n_n_wf : DotDims.WF S262144x64 S64x7 S262144x7 [1] [0] [0] [1] [] []
  scatter_S4096x9x7_S262144x2_S262144x7_1_01_01_1_wf : ScatterDims.WF S4096x9x7 S262144x2 S262144x7 [1] [0, 1] [0, 1] 1

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x7_S262144x7_1_0_0_1_n_n : DotDims S262144x64 S64x7 S262144x7 where
  lhsContracting := [1]
  rhsContracting := [0]
  lhsNonContracting := [0]
  rhsNonContracting := [1]
  lhsBatch := []
  rhsBatch := []
  wf := dot_S262144x64_S64x7_S262144x7_1_0_0_1_n_n_wf
def scatter_S4096x9x7_S262144x2_S262144x7_1_01_01_1 : ScatterDims S4096x9x7 S262144x2 S262144x7 where
  updateWindowDims := [1]
  insertedWindowDims := [0, 1]
  scatterDimsToOperandDims := [0, 1]
  indexVectorDim := 1
  wf := scatter_S4096x9x7_S262144x2_S262144x7_1_01_01_1_wf

class Facts : Prop extends Facts₀ where

variable [Facts]
-- ==== Proof.RefRun.lean ====
/-
  The reference's host program as a straight line, and its run.

  The reference is one straight line of 89 host operations once its calls are opened (the two cumulative sums, relu and
  the three wheres run their bodies on the call's own buffers). They are listed here in three stretches:
    * the integer part, from the selection mask and the batch ids alone: the running count of selected rows, the
      per-batch counts by a scatter-add, their exclusive running sum, each row's rank within its batch (g_idx)
      and whether it is kept (valid);
    * the two-layer perceptron on every row: x · W1[:128] + global[batch] · W1[128:] + b1, relu, · W2 + b2;
    * the placement: rows routed by (batch, rank) into a [4096, 9, 7] table filled with -1e9, dropped rows to
      slot 8, the first 8 slots kept, masked, and laid out as [4096, 56].
  Every weakly fair execution of the program ends with each buffer at the fold of these operations over the
  launch contents.
-/
import proofs.«161554_j670014898684_1_alg».proof.Proof.Gen.ReferenceIdeal
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The integer part: 32 operations, ending with g_idx (main_v18) and valid (main_v21). -/
abbrev opsIdx : List (HloOp τ sig (Elt F)) :=
  [ unary main_arg2 main_v0 (extui 32 · natLt_1_32),
    TRef.nullary main_call0.call0.c (constantI S_ 32 0#32),
    TRef.unary main_call0.call0.c main_call0.call0.v0 (broadcastInDim S_ ![] bcast_S_S_),
    TRef.binary (.of main_v0 : TRef sig ⟨S262144, .i32⟩) main_call0.call0.v0 main_call0.call0.v1 (fun x v => Host.reduceWindow IntOp.addi ![262144] ![1] ![262143] ![0] x v reduceWindows_S262144_S262144_w262144s1p262143_0 h_S_),
    nullary main_c (constantI S_ 32 0#32),
    unary main_c main_v2 (broadcastInDim S4096 ![] bcast_S_S4096),
    unary main_arg3 main_v3 (broadcastInDim S262144x1 ![0] bcast_S262144_S262144x1_0),
    ternary main_v2 main_v3 main_v0 main_v4 (fun x i u => Host.scatter scatter_S4096_S262144x1_S262144_n_0_0_1 IntOp.addi x i u),
    nullary main_c_0 (constantI S_ 32 0#32),
    unary main_c_0 main_v5 (broadcastInDim S1 ![] bcast_S_S1),
    TRef.nullary main_call1.call0.c (constantI S_ 32 0#32),
    TRef.unary main_call1.call0.c main_call1.call0.v0 (broadcastInDim S_ ![] bcast_S_S_),
    TRef.binary (.of main_v4 : TRef sig ⟨S4096, .i32⟩) main_call1.call0.v0 main_call1.call0.v1 (fun x v => Host.reduceWindow IntOp.addi ![4096] ![1] ![4095] ![0] x v reduceWindows_S4096_S4096_w4096s1p4095_0 h_S_),
    unary main_v6 main_v7 (extractStridedSlice S4095 ![0] · slices_S4096_S4095_0),
    binary main_v5 main_v7 main_v8 (fun a b => concatenate S4096 0 [⟨S1, a⟩, ⟨S4095, b⟩] concatenates_S1_S4095_S4096_d0),
    nullary main_c_1 (constantI S_ 32 1#32),
    unary main_c_1 main_v9 (broadcastInDim S262144 ![] bcast_S_S262144),
    binary main_v1 main_v9 main_v10 subi,
    nullary main_c_2 (constantI S_ 32 0#32),
    unary main_c_2 main_v11 (broadcastInDim S262144 ![] bcast_S_S262144),
    binary main_arg3 main_v11 main_v12 (cmpi .slt),
    nullary main_c_3 (constantI S_ 32 4096#32),
    unary main_c_3 main_v13 (broadcastInDim S262144 ![] bcast_S_S262144),
    binary main_arg3 main_v13 main_v14 addi,
    ternary main_v12 main_v14 main_arg3 main_v15 select,
    unary main_v15 main_v16 (broadcastInDim S262144x1 ![0] bcast_S262144_S262144x1_0),
    binary main_v8 main_v16 main_v17 (fun x i => Host.gather gather_S4096_S262144x1_S262144_n_0_n_n_0_1_1 x i),
    binary main_v10 main_v17 main_v18 subi,
    nullary main_c_4 (constantI S_ 32 8#32),
    unary main_c_4 main_v19 (broadcastInDim S262144 ![] bcast_S_S262144),
    binary main_v18 main_v19 main_v20 (cmpi .slt),
    binary main_arg2 main_v20 main_v21 andi ]

/-- The perceptron: 24 operations, ending with the per-row logits (main_v41). -/
abbrev opsMlp : List (HloOp τ sig (Elt F)) :=
  [ nullary main_c_5 (constantI S_ 32 0#32),
    unary main_c_5 main_v22 (broadcastInDim S262144 ![] bcast_S_S262144),
    binary main_arg3 main_v22 main_v23 (cmpi .slt),
    nullary main_c_6 (constantI S_ 32 4096#32),
    unary main_c_6 main_v24 (broadcastInDim S262144 ![] bcast_S_S262144),
    binary main_arg3 main_v24 main_v25 addi,
    ternary main_v23 main_v25 main_arg3 main_v26 select,
    unary main_v26 main_v27 (broadcastInDim S262144x1 ![0] bcast_S262144_S262144x1_0),
    binary main_arg1 main_v27 main_v28 (fun x i => Host.gather gather_S4096x128_S262144x1_S262144x128_1_0_n_n_0_1_1128 x i),
    unary main_arg5 main_v29 (extractStridedSlice S128x64 ![0, 0] · slices_S256x64_S128x64_0_0),
    binary main_arg0 main_v29 main_v30 (fun l r => Host.dotGeneral dot_S262144x128_S128x64_S262144x64_1_0_0_1_n_n none l r),
    unary main_arg5 main_v31 (extractStridedSlice S128x64 ![128, 0] · slices_S256x64_S128x64_128_0),
    binary main_v28 main_v31 main_v32 (fun l r => Host.dotGeneral dot_S262144x128_S128x64_S262144x64_1_0_0_1_n_n none l r),
    binary main_v30 main_v32 main_v33 addf,
    unary main_arg6 main_v34 (broadcastInDim S1x64 ![1] bcast_S64_S1x64_1),
    unary main_v34 main_v35 (broadcastInDim S262144x64 ![0, 1] bcast_S1x64_S262144x64_0_1),
    binary main_v33 main_v35 main_v36 addf,
    TRef.nullary main_call2.cst (constant S_ .f32 0x00000000#32),
    TRef.unary main_call2.cst main_call2.v0 (broadcastInDim S262144x64 ![] bcast_S_S262144x64),
    TRef.binary (.of main_v36 : TRef sig ⟨S262144x64, .f32⟩) main_call2.v0 main_call2.v1 maximumf,
    binary main_v37 main_arg7 main_v38 (fun l r => Host.dotGeneral dot_S262144x64_S64x7_S262144x7_1_0_0_1_n_n none l r),
    unary main_arg8 main_v39 (broadcastInDim S1x7 ![1] bcast_S7_S1x7_1),
    unary main_v39 main_v40 (broadcastInDim S262144x7 ![0, 1] bcast_S1x7_S262144x7_0_1),
    binary main_v38 main_v40 main_v41 addf ]

/-- The placement: 33 operations, ending with the result (main_v61). -/
abbrev opsTail : List (HloOp τ sig (Elt F)) :=
  [ nullary main_cst (constant S_ .f32 0xCE6E6B28#32),
    unary main_cst main_v42 (broadcastInDim S4096x9x7 ![] bcast_S_S4096x9x7),
    nullary main_c_7 (constantI S_ 32 0#32),
    TRef.unary (.of main_c_7 : TRef sig ⟨S_, .i32⟩) main_call3.v0 id,
    TRef.unary main_call3.v0 main_call3.v1 (broadcastInDim S262144 ![] bcast_S_S262144),
    TRef.ternary (.of main_v21 : TRef sig ⟨S262144, .i1⟩) (.of main_arg3 : TRef sig ⟨S262144, .i32⟩) main_call3.v1 main_call3.v2 select,
    nullary main_c_8 (constantI S_ 32 8#32),
    TRef.unary (.of main_c_8 : TRef sig ⟨S_, .i32⟩) main_call4.v0 id,
    TRef.unary main_call4.v0 main_call4.v1 (broadcastInDim S262144 ![] bcast_S_S262144),
    TRef.ternary (.of main_v21 : TRef sig ⟨S262144, .i1⟩) (.of main_v18 : TRef sig ⟨S262144, .i32⟩) main_call4.v1 main_call4.v2 select,
    nullary main_c_9 (constantI S_ 32 0#32),
    unary main_c_9 main_v45 (broadcastInDim S262144 ![] bcast_S_S262144),
    binary main_v43 main_v45 main_v46 (cmpi .slt),
    nullary main_c_10 (constantI S_ 32 4096#32),
    unary main_c_10 main_v47 (broadcastInDim S262144 ![] bcast_S_S262144),
    binary main_v43 main_v47 main_v48 addi,
    ternary main_v46 main_v48 main_v43 main_v49 select,
    nullary main_c_11 (constantI S_ 32 0#32),
    unary main_c_11 main_v50 (broadcastInDim S262144 ![] bcast_S_S262144),
    binary main_v44 main_v50 main_v51 (cmpi .slt),
    nullary main_c_12 (constantI S_ 32 9#32),
    unary main_c_12 main_v52 (broadcastInDim S262144 ![] bcast_S_S262144),
    binary main_v44 main_v52 main_v53 addi,
    ternary main_v51 main_v53 main_v44 main_v54 select,
    unary main_v49 main_v55 (broadcastInDim S262144x1 ![0] bcast_S262144_S262144x1_0),
    unary main_v54 main_v56 (broadcastInDim S262144x1 ![0] bcast_S262144_S262144x1_0),
    binary main_v55 main_v56 main_v57 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v42 main_v57 main_v41 main_v58 ((fun x i u => Host.scatter scatter_S4096x9x7_S262144x2_S262144x7_1_01_01_1 (fun _ b => b) x i u) : (⟨S4096x9x7, .f32⟩ : BufTy).Contents (Elt F) → (⟨S262144x2, .i32⟩ : BufTy).Contents (Elt F) → (⟨S262144x7, .f32⟩ : BufTy).Contents (Elt F) → (⟨S4096x9x7, .f32⟩ : BufTy).Contents (Elt F)),
    unary main_v58 main_v59 ((extractStridedSlice S4096x8x7 ![0, 0, 0] · slices_S4096x9x7_S4096x8x7_0_0_0) : (⟨S4096x9x7, .f32⟩ : BufTy).Contents (Elt F) → (⟨S4096x8x7, .f32⟩ : BufTy).Contents (Elt F)),
    nullary main_cst_13 (constant S_ .f32 0xCE6E6B28#32),
    TRef.unary (.of main_cst_13 : TRef sig ⟨S_, .f32⟩) main_call5.v0 (broadcastInDim S4096x8x7 ![] bcast_S_S4096x8x7),
    TRef.ternary (.of main_arg4 : TRef sig ⟨S4096x8x7, .i1⟩) (.of main_v59 : TRef sig ⟨S4096x8x7, .f32⟩) main_call5.v0 main_call5.v1 select,
    reshape main_v60 main_v61 rfl shapeCasts_S4096x8x7_S4096x56 ]

/-- The whole line. -/
abbrev ops : List (HloOp τ sig (Elt F)) := opsIdx ++ (opsMlp ++ opsTail)

-- eighty-nine binds re-associated: the rewrite under the chain recurses once per statement
set_option maxRecDepth 4096 in
set_option maxHeartbeats 1600000 in
/-- @main is that line: the two windows of its text and each called function's body opened at the call,
    sequencing re-associated. -/
theorem main_eq (c : Dev nD) : main (F := F) c = seq ops := by
  simp only [main, main_part0, main_part1, fn_cumsum.body, fn_cumsum_0.body, fn_cumsum_1.body, fn_cumsum_2.body, fn_relu.body,
    fn_where.body, fn_where_3.body, fn_where_4.body, seq, ops, opsIdx, opsMlp, opsTail, List.cons_append, List.nil_append,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsIdx_sub : (opsIdx : List (HloOp τ sig (Elt F))).Forall fun op => op.bufs ⊆ tcRefs τ sig :=
  ⟨unary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., binary_bufs_sub ..⟩

theorem opsMlp_sub : (opsMlp : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

theorem opsTail_sub : (opsTail : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., ternary_bufs_sub .., unary_bufs_sub .., nullary_bufs_sub ..,
    unary_bufs_sub .., ternary_bufs_sub .., reshape_bufs_sub ..⟩

/-- Every operation of the line touches TensorCore buffers only. -/
theorem ops_sub : (ops : List (HloOp τ sig (Elt F))).Forall fun op => op.bufs ⊆ tcRefs τ sig := by
  rw [List.forall_iff_forall_mem]
  intro op h
  rcases List.mem_append.mp h with h | h
  · exact (List.forall_iff_forall_mem.mp opsIdx_sub) op h
  rcases List.mem_append.mp h with h | h
  · exact (List.forall_iff_forall_mem.mp opsMlp_sub) op h
  · exact (List.forall_iff_forall_mem.mp opsTail_sub) op h

theorem opsIdx_fresh : (opsIdx : List (HloOp τ sig (Elt F))).Forall fun op => op.fresh = ∅ := by
  simp only [List.Forall]; repeat' constructor
theorem opsMlp_fresh : (opsMlp : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor

/-- No operation of the line allocates. -/
theorem ops_fresh : ∀ op ∈ (ops : List (HloOp τ sig (Elt F))), op.fresh = ∅ := by
  intro op h
  rcases List.mem_append.mp h with h | h
  · exact (List.forall_iff_forall_mem.mp opsIdx_fresh) op h
  rcases List.mem_append.mp h with h | h
  · exact (List.forall_iff_forall_mem.mp opsMlp_fresh) op h
  · exact (List.forall_iff_forall_mem.mp opsTail_fresh) op h

/-- At the compiled mesh, for any float values, from any memory with zero counters: every weakly fair execution of
    @main terminates, and every final state has each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HostRun

end
-- ==== Proof.Spec.lean ====
/-
  One row's logits of the two-layer perceptron, over the extended reals.

  For a row r with feature vector x[r, :] and the table row g[ρ r, :] its batch id selects, the hidden vector is
      p[h] = max( Σ_k x[r, k] · W1[k, h]  +  Σ_k g[ρ r, k] · W1[128 + k, h]  +  b1[h],  0 )
  and the logit d is  Σ_h p[h] · W2[h, d] + b2[d].  The two inner products are added first and the bias after:
  both programs associate the sum this way, so no law of the extended reals is needed to join them. What joins them
  is that selecting row ρ r of the product g · W1[128:] is the product of row ρ r of g with W1[128:].
-/
import Idealize.ShloMosaic.PureOps.Ideal
import Idealize.ShloMosaic.Lib.ValueIdx

noncomputable section

namespace Cert.Spec

open Idealize.ShloMosaic Idealize.ShloMosaic.ValueIdx

variable {R B : Nat}

/-- Hidden unit h of row r, after the rectifier. -/
def hidden (x : Fin R → Fin 128 → EReal) (g : Fin B → Fin 128 → EReal) (w1 : Fin 256 → Fin 64 → EReal)
    (b1 : Fin 64 → EReal) (ρ : Fin R → Fin B) (r : Fin R) (h : Fin 64) : EReal :=
  max ((∑ k : Fin 128, x r k * w1 ⟨k.val, by omega⟩ h) + (∑ k : Fin 128, g (ρ r) k * w1 ⟨128 + k.val, by omega⟩ h) + b1 h)
    (Ideal.ofBits .f32 0x00000000#32)

/-- Logit d of row r. -/
def logit (x : Fin R → Fin 128 → EReal) (g : Fin B → Fin 128 → EReal) (w1 : Fin 256 → Fin 64 → EReal)
    (b1 : Fin 64 → EReal) (w2 : Fin 64 → Fin 7 → EReal) (b2 : Fin 7 → EReal) (ρ : Fin R → Fin B) (r : Fin R) (d : Fin 7) : EReal :=
  (∑ h : Fin 64, hidden x g w1 b1 ρ r h * w2 h d) + b2 d

/-- The table row a column of start indices selects for row r: the index read as a signed integer and clamped into
    [0, B − 1], which is how a row gather reads its operand. -/
def rowOf {w : Nat} (hB : 0 < B) (idx : IVec ⟨2, ![R, 1]⟩ w) (r : Fin R) : Fin B :=
  ⟨min (idx (ix2 r (0 : Fin 1))).toInt.toNat (B - 1), by omega⟩

/-- The logits of every row, as one array function of the argument arrays and the row map. -/
def logits (x : (⟨2, ![R, 128]⟩ : Shape).Idx → EReal) (g : (⟨2, ![B, 128]⟩ : Shape).Idx → EReal)
    (w1 : (⟨2, ![256, 64]⟩ : Shape).Idx → EReal) (b1 : (⟨1, ![64]⟩ : Shape).Idx → EReal)
    (w2 : (⟨2, ![64, 7]⟩ : Shape).Idx → EReal) (b2 : (⟨1, ![7]⟩ : Shape).Idx → EReal) (ρ : Fin R → Fin B) :
    (⟨2, ![R, 7]⟩ : Shape).Idx → EReal :=
  fun i => logit (fun r k => x (ix2 r k)) (fun b k => g (ix2 b k)) (fun k h => w1 (ix2 k h)) (fun h => b1 (ix1 h))
    (fun h d => w2 (ix2 h d)) (fun d => b2 (ix1 d)) ρ (i 0) (i 1)

end Cert.Spec

end
-- ==== Proof.LibPlainDot.lean ====
/-
  A plain matrix product read at an entry.

  Take an [M, K] matrix l and a [K, N] matrix r and dimension numbers that contract l's columns with r's rows,
  no batch axis. Over the extended reals the product is exact and has no schedule: on the kernel's matrix unit
  into a zero accumulator, and as the host's dot_general, its entry (a, b) is the sum over k of l[a, k] · r[k, b].
  The library states both as a sum over the contraction index of the dimension numbers; here that index is
  replaced by its one coordinate k.
-/
import Idealize.ShloMosaic.PureOps.Ideal
import Idealize.ShloMosaic.PureOps.Ideal.Laws
import Idealize.ShloMosaic.Lib.ValueIdx

noncomputable section

namespace Cert.Lib.PlainDot

open Idealize.ShloMosaic Idealize.ShloMosaic.ValueIdx

variable {M K N : Nat}

/-- The left operand's row is the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contracted coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contracted coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index is the sum over k of l[a, k] · r[k, b]. -/
theorem sum_contr (l : (⟨2, ![M, K]⟩ : Shape).Idx → EReal) (r : (⟨2, ![K, N]⟩ : Shape).Idx → EReal) (a : Fin M) (b : Fin N) :
    ∑ q : (DotDims.plain M K N).contr.Idx,
        l ((DotDims.plain M K N).lhsIdx (ix2 a b) q) * r ((DotDims.plain M K N).rhsIdx (ix2 a b) q)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun x => Fin.ext (by
      match x with
      | ⟨0, _⟩ => exact lhs_row _ _
      | ⟨1, _⟩ => exact (lhs_col _ _).trans hk)
  have er : (DotDims.plain M K N).rhsIdx (ix2 a b) ((contrEquiv1 (DotDims.plain M K N) K rfl rfl).symm k) = ix2 k b :=
    funext fun x => Fin.ext (by
      match x with
      | ⟨0, _⟩ => exact (rhs_row _ _).trans hk
      | ⟨1, _⟩ => exact rhs_col _ _)
  rw [el, er]

/-- The matrix unit's product into a zero accumulator, at entry (a, b). -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    matmul (F := Ideal) (DotDims.plain M K N) prec l r (constant ⟨2, ![M, N]⟩ .f32 0x00000000#32) (ix2 a b)
      = ∑ k : Fin K, (l (ix2 a k) : EReal) * (r (ix2 k b) : EReal) := by
  simp only [matmul]
  rw [Ideal.matmul_constant_zero_apply]
  exact sum_contr (M := M) (K := K) (N := N) l r a b

/-- The host's dot_general, at entry (a, b). -/
theorem dotGeneral_apply {φ₁ φ₂ : FTy} (prec : Option ContractPrecision)
    (l : FVec Ideal ⟨2, ![M, K]⟩ φ₁) (r : FVec Ideal ⟨2, ![K, N]⟩ φ₂) (a : Fin M) (b : Fin N) :
    Host.dotGeneral (F := Ideal) (DotDims.plain M K N) prec l r (ix2 a b)
      = ∑ k : Fin K, (l (ix2 a k) : EReal) * (r (ix2 k b) : EReal) := by
  simp only [Host.dotGeneral]
  rw [Ideal.dotGeneral_apply]
  exact sum_contr (M := M) (K := K) (N := N) l r a b

end Cert.Lib.PlainDot

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefValue.lean ====
/-
  The reference's per-row logits, read entry by entry.

  The middle stretch of the reference computes, for the whole [262144, ·] arrays at once,
      relu( x · W1[:128] + global[batch] · W1[128:] + b1 ) · W2 + b2 :
  a row gather of the [4096, 128] table by the batch ids (ids below zero moved up by 4096, then clamped by the gather), two
  slices of W1, three host dot_generals, two biases broadcast along the rows, and a maximum with a zero splat. Over the extended
  reals a dot_general is the exact sum over its contracted axis and the gather reads the clamped row, so entry (r, d) is the
  specification's logit of row r with the row map "clamped, shifted batch id".
-/
import proofs.«161554_j670014898684_1_alg».proof.Proof.RefRun
import proofs.«161554_j670014898684_1_alg».proof.Proof.Spec
import proofs.«161554_j670014898684_1_alg».proof.Proof.LibPlainDot
import proofs.«161554_j670014898684_1_alg».proof.Proof.LibRowOps
import Idealize.ShloMosaic.Lib.Pipeline.Value
import Idealize.ShloMosaic.Lib.ValueIdx

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo Idealize.ShloMosaic.ValueIdx

variable {F : FTy → Type} [FloatOps F]

/-- The column of start indices the row gather reads: a batch id below zero is moved up by 4096. -/
def rowStart (batch : IVec S262144 32) : IVec S262144x1 32 :=
  broadcastInDim S262144x1 ![0] bcast_S262144_S262144x1_0
    (select (cmpi .slt batch (broadcastInDim S262144 ![] bcast_S_S262144 (constantI S_ 32 0#32)))
      (addi batch (broadcastInDim S262144 ![] bcast_S_S262144 (constantI S_ 32 4096#32))) batch)

/-- The per-row logits as the reference's operations compute them from the argument arrays. -/
def refOut (a0 : FVec F S262144x128 .f32) (a1 : FVec F S4096x128 .f32) (a3 : IVec S262144 32) (a5 : FVec F S256x64 .f32)
    (a6 : FVec F S64 .f32) (a7 : FVec F S64x7 .f32) (a8 : FVec F S7 .f32) : FVec F S262144x7 .f32 :=
  addf
    (Host.dotGeneral dot_S262144x64_S64x7_S262144x7_1_0_0_1_n_n none
      (maximumf
        (addf
          (addf
            (Host.dotGeneral dot_S262144x128_S128x64_S262144x64_1_0_0_1_n_n none a0
              (extractStridedSlice S128x64 ![0, 0] a5 slices_S256x64_S128x64_0_0))
            (Host.dotGeneral dot_S262144x128_S128x64_S262144x64_1_0_0_1_n_n none
              (Host.gather gather_S4096x128_S262144x1_S262144x128_1_0_n_n_0_1_1128 a1 (rowStart a3))
              (extractStridedSlice S128x64 ![128, 0] a5 slices_S256x64_S128x64_128_0)))
          (broadcastInDim S262144x64 ![0, 1] bcast_S1x64_S262144x64_0_1 (broadcastInDim S1x64 ![1] bcast_S64_S1x64_1 a6)))
        (broadcastInDim S262144x64 ![] bcast_S_S262144x64 (constant (F := F) S_ .f32 0x00000000#32)))
      a7)
    (broadcastInDim S262144x7 ![0, 1] bcast_S1x7_S262144x7_0_1 (broadcastInDim S1x7 ![1] bcast_S7_S1x7_1 a8))

set_option maxHeartbeats 4000000 in
/-- The middle stretch leaves exactly that term in the logits buffer, whatever the contents it starts from. -/
theorem mlp_result (W : Valuation τ sig (Elt F)) :
    after opsMlp W (main_v41 : DevRef τ sig)
      = refOut (W (main_arg0 : DevRef τ sig)) (W (main_arg1 : DevRef τ sig)) (W (main_arg3 : DevRef τ sig))
          (W (main_arg5 : DevRef τ sig)) (W (main_arg6 : DevRef τ sig)) (W (main_arg7 : DevRef τ sig)) (W (main_arg8 : DevRef τ sig)) := by
  after_results_simp
  simp only [TRef.ofBuf, TRef.toBuf, cast_eq]
  rfl

/-- The dimension numbers of the two wide products are the plain ones, [262144, 128] by [128, 64], -/
theorem dotA_plain : dot_S262144x128_S128x64_S262144x64_1_0_0_1_n_n = DotDims.plain 262144 128 64 := rfl
/-- and of the narrow one, [262144, 64] by [64, 7]. -/
theorem dotB_plain : dot_S262144x64_S64x7_S262144x7_1_0_0_1_n_n = DotDims.plain 262144 64 7 := rfl
/-- The gather's dimension numbers are those of a row gather from a [4096, 128] table. -/
theorem gather_rows : gather_S4096x128_S262144x1_S262144x128_1_0_n_n_0_1_1128
    = Cert.Lib.RowOps.gath2 4096 128 262144 gather_S4096x128_S262144x1_S262144x128_1_0_n_n_0_1_1128_wf := rfl

/-- A vector laid out as a [1, n] row and then repeated down R rows reads the vector's entry in the same column. -/
theorem biasRows_apply {R n : Nat} (v : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![R, n]⟩ ![0, 1]) (r : Fin R) (j : Fin n) :
    broadcastInDim ⟨2, ![R, n]⟩ ![0, 1] h2 (broadcastInDim ⟨2, ![1, n]⟩ ![1] h1 v) (ix2 r j) = v (ix1 j) := by
  refine (broadcastInDim_apply ![0, 1] h2 _ (ix2 r j) (ix2 0 j) fun a => ?_).trans
    (broadcastInDim_apply ![1] h1 v (ix2 0 j) (ix1 j) fun a => ?_)
  · match a with
    | ⟨0, _⟩ => rfl
    | ⟨1, _⟩ =>
      show j.val = if n = 1 then 0 else j.val
      split_ifs with hn
      · have := j.isLt; omega
      · rfl
  · match a with
    | ⟨0, _⟩ =>
      show j.val = if n = 1 then 0 else j.val
      split_ifs with hn
      · have := j.isLt; omega
      · rfl

/-- A scalar splat reads the scalar everywhere. -/
theorem splat_apply {s : Shape} (z : (⟨0, ![]⟩ : Shape).Idx → EReal) (h : (⟨0, ![]⟩ : Shape).BroadcastsInDim s ![]) (i : s.Idx) :
    broadcastInDim s ![] h z i = z ix0 :=
  broadcastInDim_apply ![] h z i ix0 fun a => a.elim0

/-- The rows 0 … 127 of W1. -/
theorem upper_apply (a5 : (⟨2, ![256, 64]⟩ : Shape).Idx → EReal) (k : Fin 128) (h : Fin 64) :
    extractStridedSlice S128x64 ![0, 0] a5 slices_S256x64_S128x64_0_0 (ix2 k h) = a5 (ix2 ⟨k.val, by omega⟩ h) := by
  refine extractStridedSlice_apply ![0, 0] a5 slices_S256x64_S128x64_0_0 (ix2 k h) (ix2 ⟨k.val, by omega⟩ h) fun a => ?_
  match a with
  | ⟨0, _⟩ => exact (Nat.zero_add _).symm
  | ⟨1, _⟩ => exact (Nat.zero_add _).symm

/-- The rows 128 … 255 of W1. -/
theorem lower_apply (a5 : (⟨2, ![256, 64]⟩ : Shape).Idx → EReal) (k : Fin 128) (h : Fin 64) :
    extractStridedSlice S128x64 ![128, 0] a5 slices_S256x64_S128x64_128_0 (ix2 k h) = a5 (ix2 ⟨128 + k.val, by omega⟩ h) := by
  refine extractStridedSlice_apply ![128, 0] a5 slices_S256x64_S128x64_128_0 (ix2 k h) (ix2 ⟨128 + k.val, by omega⟩ h) fun a => ?_
  match a with
  | ⟨0, _⟩ => rfl
  | ⟨1, _⟩ => exact (Nat.zero_add _).symm

/-- The gathered table: row r holds the table's row the clamped, shifted batch id names. -/
theorem gathered_apply (a1 : (⟨2, ![4096, 128]⟩ : Shape).Idx → EReal) (a3 : IVec S262144 32) (r : Fin 262144) (k : Fin 128) :
    Host.gather gather_S4096x128_S262144x1_S262144x128_1_0_n_n_0_1_1128 a1 (rowStart a3) (ix2 r k)
      = a1 (ix2 (Cert.Spec.rowOf (B := 4096) (by decide) (rowStart a3) r) k) := by
  rw [gather_rows]
  exact Cert.Lib.RowOps.gath2_apply (by decide) _ a1 (rowStart a3) r k

/-- Entry by entry the reference's logits are the specification's, with the row map the clamped, shifted batch id. -/
theorem refOut_eq (a0 : FVec Ideal S262144x128 .f32) (a1 : FVec Ideal S4096x128 .f32) (a3 : IVec S262144 32)
    (a5 : FVec Ideal S256x64 .f32) (a6 : FVec Ideal S64 .f32) (a7 : FVec Ideal S64x7 .f32) (a8 : FVec Ideal S7 .f32) :
    refOut (F := Ideal) a0 a1 a3 a5 a6 a7 a8
      = Cert.Spec.logits a0 a1 a5 a6 a7 a8 (Cert.Spec.rowOf (B := 4096) (by decide) (rowStart a3)) := by
  funext i
  obtain ⟨r, d, rfl⟩ : ∃ (r : Fin 262144) (d : Fin 7), i = ix2 r d := ⟨i 0, i 1, eq_ix2 i⟩
  unfold refOut
  rw [addf_apply, dotB_plain, Cert.Lib.PlainDot.dotGeneral_apply, biasRows_apply]
  simp only [Cert.Spec.logits, Cert.Spec.logit, Cert.Spec.hidden]
  congr 1
  refine Finset.sum_congr rfl fun h _ => ?_
  congr 1
  rw [maximumf_apply, addf_apply, addf_apply, dotA_plain, Cert.Lib.PlainDot.dotGeneral_apply, Cert.Lib.PlainDot.dotGeneral_apply,
    biasRows_apply, splat_apply, constant_apply]
  simp only [upper_apply, lower_apply, gathered_apply]

end Cert.ReferenceIdeal.HostValue

end
-- ==== Proof.RefKeeps.lean ====
/-
  What each stretch of the reference writes, and what it therefore keeps.

  Each operation writes its own result buffer and nothing else. Listing the result buffers of a stretch shows which buffers
  pass through it untouched: no stretch writes an argument; the perceptron writes neither the rank g_idx nor the flag valid;
  and the logits buffer after the first two stretches is the reference's term of the launch arguments.
-/
import proofs.«161554_j670014898684_1_alg».proof.Proof.RefRun
import proofs.«161554_j670014898684_1_alg».proof.Proof.RefValue

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo

variable {F : FTy → Type} [FloatOps F]

/-- The buffers the integer part writes. -/
abbrev idxWrites : List (Ref sig .tc) :=
  [main_v0, main_call0_call0_c, main_call0_call0_v0, main_v1, main_c, main_v2, main_v3, main_v4, main_c_0, main_v5,
    main_call1_call0_c, main_call1_call0_v0, main_v6, main_v7, main_v8, main_c_1, main_v9, main_v10, main_c_2, main_v11, main_v12,
    main_c_3, main_v13, main_v14, main_v15, main_v16, main_v17, main_v18, main_c_4, main_v19, main_v20, main_v21]

/-- The buffers the perceptron writes. -/
abbrev mlpWrites : List (Ref sig .tc) :=
  [main_c_5, main_v22, main_v23, main_c_6, main_v24, main_v25, main_v26, main_v27, main_v28, main_v29, main_v30, main_v31, main_v32,
    main_v33, main_v34, main_v35, main_v36, main_call2_cst, main_call2_v0, main_v37, main_v38, main_v39, main_v40, main_v41]

/-- The buffers the placement writes. -/
abbrev tailWrites : List (Ref sig .tc) :=
  [main_cst, main_v42, main_c_7, main_call3_v0, main_call3_v1, main_v43, main_c_8, main_call4_v0, main_call4_v1, main_v44, main_c_9,
    main_v45, main_v46, main_c_10, main_v47, main_v48, main_v49, main_c_11, main_v50, main_v51, main_c_12, main_v52, main_v53, main_v54,
    main_v55, main_v56, main_v57, main_v58, main_v59, main_cst_13, main_call5_v0, main_v60, main_v61]

theorem opsIdx_writes : (opsIdx : List (HloOp τ sig (Elt F))).Forall fun op =>
    op.writes ⊆ (idxWrites.map (Proc.devRef (τ := τ) .tc)).toFinset := by
  simp only [opsIdx, List.Forall, nullary_writes, unary_writes, binary_writes, ternary_writes, reshape_writes,
    Finset.singleton_subset_iff, List.mem_toFinset, List.mem_map]
  repeat' apply And.intro
  all_goals exact ⟨_, by decide, rfl⟩

theorem opsMlp_writes : (opsMlp : List (HloOp τ sig (Elt F))).Forall fun op =>
    op.writes ⊆ (mlpWrites.map (Proc.devRef (τ := τ) .tc)).toFinset := by
  simp only [opsMlp, List.Forall, nullary_writes, unary_writes, binary_writes, ternary_writes, reshape_writes,
    Finset.singleton_subset_iff, List.mem_toFinset, List.mem_map]
  repeat' apply And.intro
  all_goals exact ⟨_, by decide, rfl⟩

theorem opsTail_writes : (opsTail : List (HloOp τ sig (Elt F))).Forall fun op =>
    op.writes ⊆ (tailWrites.map (Proc.devRef (τ := τ) .tc)).toFinset := by
  simp only [opsTail, List.Forall, nullary_writes, unary_writes, binary_writes, ternary_writes, reshape_writes,
    Finset.singleton_subset_iff, List.mem_toFinset, List.mem_map]
  repeat' apply And.intro
  all_goals exact ⟨_, by decide, rfl⟩

/-- A buffer the integer part does not write passes through it. -/
theorem idx_keeps (V : Valuation τ sig (Elt F)) {r : Ref sig .tc} (hr : r ∉ idxWrites) :
    after opsIdx V (Proc.devRef .tc r) = V (Proc.devRef .tc r) := after_of_writes_sub opsIdx V opsIdx_writes hr
/-- A buffer the perceptron does not write passes through it. -/
theorem mlp_keeps (V : Valuation τ sig (Elt F)) {r : Ref sig .tc} (hr : r ∉ mlpWrites) :
    after opsMlp V (Proc.devRef .tc r) = V (Proc.devRef .tc r) := after_of_writes_sub opsMlp V opsMlp_writes hr
/-- A buffer the placement does not write passes through it. -/
theorem tail_keeps (V : Valuation τ sig (Elt F)) {r : Ref sig .tc} (hr : r ∉ tailWrites) :
    after opsTail V (Proc.devRef .tc r) = V (Proc.devRef .tc r) := after_of_writes_sub opsTail V opsTail_writes hr

/-- The whole line is its three stretches one after the other. -/
theorem after_ops (V : Valuation τ sig (Elt F)) : after ops V = after opsTail (after opsMlp (after opsIdx V)) := by
  show after (opsIdx ++ (opsMlp ++ opsTail)) V = _
  rw [StableHlo.after_append, StableHlo.after_append]

/-- A buffer no stretch writes ends as launched. -/
theorem ops_keeps (V : Valuation τ sig (Elt F)) {r : Ref sig .tc} (h1 : r ∉ idxWrites) (h2 : r ∉ mlpWrites) (h3 : r ∉ tailWrites) :
    after ops V (Proc.devRef .tc r) = V (Proc.devRef .tc r) := by
  rw [after_ops, tail_keeps _ h3, mlp_keeps _ h2, idx_keeps _ h1]

/-- After the first two stretches the logits buffer holds the reference's term of the launch arguments. -/
theorem logits_buffer (V : Valuation τ sig (Elt F)) :
    after opsMlp (after opsIdx V) (main_v41 : DevRef τ sig)
      = refOut (V (main_arg0 : DevRef τ sig)) (V (main_arg1 : DevRef τ sig)) (V (main_arg3 : DevRef τ sig))
          (V (main_arg5 : DevRef τ sig)) (V (main_arg6 : DevRef τ sig)) (V (main_arg7 : DevRef τ sig)) (V (main_arg8 : DevRef τ sig)) := by
  rw [mlp_result, idx_keeps V (r := main_arg0) (by decide), idx_keeps V (r := main_arg1) (by decide),
    idx_keeps V (r := main_arg3) (by decide), idx_keeps V (r := main_arg5) (by decide), idx_keeps V (r := main_arg6) (by decide),
    idx_keeps V (r := main_arg7) (by decide), idx_keeps V (r := main_arg8) (by decide)]

end Cert.ReferenceIdeal.HostValue

end
-- ==== Proof.KernelPay.lean ====
/-
  What the kernel body stores, read at an entry of its block.

  At one grid point the body holds a [4096, 128] block x of rows, the [128, 64] upper half of W1, a [4096, 64] block g of the
  gathered projection, b1 as a [1, 64] row, W2 and b2 as a [1, 7] row, and stores one [4096, 7] block. Over the extended
  reals the changes of float format are the identity and both products on the matrix unit are exact sums into a zero
  accumulator, so entry (p, d) of the stored block is
      Σ_h max( Σ_k x[p, k] · w[k, h] + g[p, h] + b1[0, h], 0 ) · W2[h, d] + b2[0, d].
-/
import proofs.«161554_j670014898684_1_alg».proof.Proof.Gen.KernelIdeal.Skeleton
import proofs.«161554_j670014898684_1_alg».proof.Proof.LibPlainDot
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- The first product's dimension numbers are the plain ones: [4096, 128] by [128, 64]. -/
theorem dotA_plain : dot_S4096x128_S128x64_S4096x64_1_0_0_1_n_n = DotDims.plain 4096 128 64 := rfl
/-- The second product's too: [4096, 64] by [64, 7]. -/
theorem dotB_plain : dot_S4096x64_S64x7_S4096x7_1_0_0_1_n_n = DotDims.plain 4096 64 7 := rfl

/-- A [1, n] row broadcast down 4096 rows reads the row's entry in the same column. -/
theorem rowBroadcast_apply {n : Nat} (v : (⟨2, ![1, n]⟩ : Shape).Idx → EReal) (h : (⟨2, ![1, n]⟩ : Shape).Broadcasts ⟨2, ![4096, n]⟩)
    (p : Fin 4096) (j : Fin n) : broadcastTo ⟨2, ![4096, n]⟩ v h (ix2 p j) = v (ix2 0 j) := by
  refine broadcastTo_apply v h (ix2 p j) (ix2 0 j) fun a => ?_
  match a with
  | ⟨0, _⟩ => rfl
  | ⟨1, _⟩ =>
    show j.val = if n = 1 then 0 else j.val
    split_ifs with hn
    · have := j.isLt; omega
    · rfl

/-- Hidden unit h of block row p, after the rectifier. -/
theorem hidden_apply (x0 : Vec Ideal S4096x128 .f32) (x2 : Vec Ideal S128x64 .f32) (x6 : Vec Ideal S4096x64 .f32)
    (x9 : Vec Ideal S1x64 .f32) (p : Fin 4096) (h : Fin 64) :
    maximumf (addf (addf (matmul dot_S4096x128_S128x64_S4096x64_1_0_0_1_n_n none (truncf .bf16 x0 bitsLt_bf16_f32)
        (truncf .bf16 x2 bitsLt_bf16_f32) (constant S4096x64 .f32 0x00000000#32)) x6)
        (broadcastTo S4096x64 x9 broadcasts_S1x64_S4096x64))
      (broadcast S4096x64 (Scalar.ofBits (F := Ideal) .f32 0x00000000#32)) (ix2 p h)
      = max ((∑ k : Fin 128, x0 (ix2 p k) * x2 (ix2 k h)) + x6 (ix2 p h) + x9 (ix2 0 h)) (Ideal.ofBits .f32 0x00000000#32) := by
  rw [maximumf_apply, addf_apply, addf_apply, dotA_plain, Cert.Lib.PlainDot.matmul_zero_apply]
  simp only [truncf_apply, broadcast_apply]
  rw [rowBroadcast_apply]
  rfl

/-- Entry (p, d) of the block the body stores. -/
theorem pay_apply (x0 : Vec Ideal S4096x128 .f32) (x2 : Vec Ideal S128x64 .f32) (x6 : Vec Ideal S4096x64 .f32)
    (x9 : Vec Ideal S1x64 .f32) (x16 : Vec Ideal S64x7 .f32) (x19 : Vec Ideal S1x7 .f32) (p : Fin 4096) (d : Fin 7) :
    k0_pay1 x0 x2 x6 x9 x16 x19 (ix2 p d)
      = (∑ h : Fin 64, max ((∑ k : Fin 128, x0 (ix2 p k) * x2 (ix2 k h)) + x6 (ix2 p h) + x9 (ix2 0 h))
            (Ideal.ofBits .f32 0x00000000#32) * x16 (ix2 h d)) + x19 (ix2 0 d) := by
  unfold k0_pay1
  rw [addf_apply, dotB_plain, Cert.Lib.PlainDot.matmul_zero_apply]
  simp only [truncf_apply, shapeCast_self]
  rw [rowBroadcast_apply]
  congr 1
  refine Finset.sum_congr rfl fun h _ => ?_
  rw [hidden_apply]

end Cert.KernelIdeal.Hand

end
-- ==== Proof.KernelValue.lean ====
/-
  The kernel's logits array after the region, as one function of the arrays the region finds.

  The region runs 64 points; point t reads rows 4096·t … 4096·t + 4095 of the feature array and of the gathered projection,
  the whole of the four small operands, and writes back rows 4096·t … 4096·t + 4095 of the [262144, 7] result. So entry (r, d)
  of the result is the body's formula on row r of the two tall arrays:
      Σ_h max( Σ_k x[r, k] · w[k, h] + g[r, h] + b1[0, h], 0 ) · W2[h, d] + b2[0, d],
  the 64 row blocks tile the result, and the array after the last point is this function everywhere.
-/
import proofs.«161554_j670014898684_1_alg».proof.Proof.Gen.KernelIdeal.Frame
import proofs.«161554_j670014898684_1_alg».proof.Proof.KernelPay
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The six operand arrays as the region finds them, at their literal shapes. -/
abbrev xArr (c : Dev nD) : Vec Ideal S262144x128 .f32 := V m c main_arg0
abbrev gArr (c : Dev nD) : Vec Ideal S262144x64 .f32 := V m c main_v31
abbrev wArr (c : Dev nD) : Vec Ideal S128x64 .f32 := V m c main_v22
abbrev b1Arr (c : Dev nD) : Vec Ideal S1x64 .f32 := V m c main_v32
abbrev w2Arr (c : Dev nD) : Vec Ideal S64x7 .f32 := V m c main_arg7
abbrev b2Arr (c : Dev nD) : Vec Ideal S1x7 .f32 := V m c main_v33

/-- The logits array: the body's formula on row r of the tall arrays. -/
def outArr (c : Dev nD) : Vec Ideal S262144x7 .f32 := fun i =>
  (∑ h : Fin 64, max ((∑ k : Fin 128, xArr m c (ix2 (i 0) k) * wArr m c (ix2 k h)) + gArr m c (ix2 (i 0) h) + b1Arr m c (ix2 0 h))
      (Ideal.ofBits .f32 0x00000000#32) * w2Arr m c (ix2 h (i 1))) + b2Arr m c (ix2 0 (i 1))

theorem hz : (![0, 0] : Fin 2 → Nat) = fun _ => 0 := funext fun a => by fin_cases a <;> rfl

/-- The grid has 64 points. -/
theorem point_lt (t : Fin cfg0.N) : t.val < 64 := Nat.lt_of_lt_of_eq t.isLt N_0

/-- The index maps over the grid: the two tall inputs and the output move one block of rows per point, the four small
    operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the feature block at point t is row 4096·t + p of the feature array. -/
theorem xblk_apply (c : Dev nD) (t : Fin cfg0.N) (p : Fin 4096) (k : Fin 128) :
    (iblk m c 0 t : Vec Ideal S4096x128 .f32) (ix2 p k)
      = xArr m c (ix2 ⟨4096 * t.val + p.val, by have := point_lt t; omega⟩ k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 4096 + 1 * p.val = 4096 * t.val + p.val; rw [e0]; omega
  | ⟨1, _⟩ => show win0_0.index t (1 : Fin 2) * 128 + 1 * k.val = k.val; rw [e1]; omega

/-- Row p of the projection block at point t is row 4096·t + p of the gathered projection. -/
theorem gblk_apply (c : Dev nD) (t : Fin cfg0.N) (p : Fin 4096) (h : Fin 64) :
    (iblk m c 1 t : Vec Ideal S4096x64 .f32) (ix2 p h)
      = gArr m c (ix2 ⟨4096 * t.val + p.val, by have := point_lt t; omega⟩ h) := by
  obtain ⟨-, -, e0, e1, -⟩ := idx_facts t
  unfold iblk
  rw [View.read_apply]
  show V m c main_v31 _ = V m c main_v31 _
  congr 1
  funext a
  apply Fin.ext
  match a with
  | ⟨0, _⟩ => show win0_1.index t (0 : Fin 2) * 4096 + 1 * p.val = 4096 * t.val + p.val; rw [e0]; omega
  | ⟨1, _⟩ => show win0_1.index t (1 : Fin 2) * 64 + 1 * h.val = h.val; rw [e1]; omega

/-- The weight block is the whole upper half of W1 at every point. -/
theorem wblk_apply (c : Dev nD) (t : Fin cfg0.N) (k : Fin 128) (h : Fin 64) :
    (iblk m c 2 t : Vec Ideal S128x64 .f32) (ix2 k h) = wArr m c (ix2 k h) := by
  obtain ⟨-, -, -, -, e0, e1, -⟩ := idx_facts t
  unfold iblk
  rw [View.read_apply]
  show V m c main_v22 _ = V m c main_v22 _
  congr 1
  funext a
  apply Fin.ext
  match a with
  | ⟨0, _⟩ => show win0_2.index t (0 : Fin 2) * 128 + 1 * k.val = k.val; rw [e0]; omega
  | ⟨1, _⟩ => show win0_2.index t (1 : Fin 2) * 64 + 1 * h.val = h.val; rw [e1]; omega

/-- The first bias block is the whole row. -/
theorem b1blk_apply (c : Dev nD) (t : Fin cfg0.N) (z : Fin 1) (h : Fin 64) :
    (iblk m c 3 t : Vec Ideal S1x64 .f32) (ix2 z h) = b1Arr m c (ix2 z h) := by
  obtain ⟨-, -, -, -, -, -, e0, e1, -⟩ := idx_facts t
  unfold iblk
  rw [View.read_apply]
  show V m c main_v32 _ = V m c main_v32 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * h.val = h.val; rw [e1]; omega

/-- The second weight block is the whole of W2. -/
theorem w2blk_apply (c : Dev nD) (t : Fin cfg0.N) (h : Fin 64) (d : Fin 7) :
    (iblk m c 4 t : Vec Ideal S64x7 .f32) (ix2 h d) = w2Arr m c (ix2 h d) := by
  obtain ⟨-, -, -, -, -, -, -, -, e0, e1, -⟩ := idx_facts t
  unfold iblk
  rw [View.read_apply]
  show V m c main_arg7 _ = V m c main_arg7 _
  congr 1
  funext a
  apply Fin.ext
  match a with
  | ⟨0, _⟩ => show win0_4.index t (0 : Fin 2) * 64 + 1 * h.val = h.val; rw [e0]; omega
  | ⟨1, _⟩ => show win0_4.index t (1 : Fin 2) * 7 + 1 * d.val = d.val; rw [e1]; omega

/-- The second bias block is the whole row. -/
theorem b2blk_apply (c : Dev nD) (t : Fin cfg0.N) (z : Fin 1) (d : Fin 7) :
    (iblk m c 5 t : Vec Ideal S1x7 .f32) (ix2 z d) = b2Arr m c (ix2 z d) := by
  obtain ⟨-, -, -, -, -, -, -, -, -, -, e0, e1, -⟩ := idx_facts t
  unfold iblk
  rw [View.read_apply]
  show V m c main_v33 _ = V m c main_v33 _
  congr 1
  funext a
  apply Fin.ext
  match a with
  | ⟨0, _⟩ => show win0_5.index t (0 : Fin 2) * 1 + 1 * z.val = z.val; rw [e0]; omega
  | ⟨1, _⟩ => show win0_5.index t (1 : Fin 2) * 7 + 1 * d.val = d.val; rw [e1]; omega

/-- Entry (p, d) of the output block at point t sits at row 4096·t + p of the result. -/
theorem oblk_emb (t : Fin cfg0.N) (p : Fin 4096) (d : Fin 7) :
    (((cfg0.win 6).blk t).view.emb (ix2 p d) : S262144x7.Idx) = ix2 ⟨4096 * t.val + p.val, by have := point_lt t; omega⟩ d := by
  obtain ⟨-, -, -, -, -, -, -, -, -, -, -, -, e0, e1⟩ := idx_facts t
  funext a
  apply Fin.ext
  match a with
  | ⟨0, _⟩ => show win0_6.index t (0 : Fin 2) * 4096 + 1 * p.val = 4096 * t.val + p.val; rw [e0]; omega
  | ⟨1, _⟩ => show win0_6.index t (1 : Fin 2) * 7 + 1 * d.val = d.val; rw [e1]; omega

/-- What point t writes back is block t of the logits array. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  unfold out0_6
  rw [View.canon_unit_zero hz]
  simp only [View.ld_unit_zero (S := S4096x128) hz, View.ld_unit_zero (S := S128x64) hz, View.ld_unit_zero (S := S4096x64) hz,
    View.ld_unit_zero (S := S1x64) hz, View.ld_unit_zero (S := S64x7) hz, View.ld_unit_zero (S := S1x7) hz]
  funext j
  obtain ⟨p, d, rfl⟩ : ∃ (p : Fin 4096) (d : Fin 7), j = ix2 p d := ⟨j 0, j 1, eq_ix2 j⟩
  show k0_pay1 (iblk m c 0 t) (iblk m c 2 t) (iblk m c 1 t) (iblk m c 3 t) (iblk m c 4 t) (iblk m c 5 t) (ix2 p d)
    = outArr m c (((cfg0.win 6).blk t).view.emb (ix2 p d))
  refine (pay_apply (iblk m c 0 t) (iblk m c 2 t) (iblk m c 1 t) (iblk m c 3 t) (iblk m c 4 t) (iblk m c 5 t) p d).trans ?_
  rw [oblk_emb t p d]
  unfold outArr
  simp only [xblk_apply, gblk_apply, wblk_apply, b1blk_apply, w2blk_apply, b2blk_apply]

/-- An index of the result is in point t's block iff each coordinate is in the block's range on its axis. -/
theorem mem_blk (t : Fin cfg0.N) (i : S262144x7.Idx) :
    i ∈ ((cfg0.win 6).blk t).view.set
      ↔ ∀ a : Fin 2, win0_6.index t a * S4096x7.size a ≤ (i a).val ∧ (i a).val < win0_6.index t a * S4096x7.size a + S4096x7.size a := by
  show i ∈ ((View.whole main_v34).slice (win0_6.rect t)).set ↔ _
  rw [View.set_slice_whole, Rect.mem_set_unit]
  exact Iff.rfl

/-- Every row of the result lies in the block of the point its row number divided by 4096 names. -/
theorem covered (i : S262144x7.Idx) : ∃ t : Fin cfg0.N, (cfg0.win 6).flush t = true ∧ i ∈ ((cfg0.win 6).blk t).view.set := by
  have hi0 : (i 0).val < 262144 := (i 0).isLt
  have hi1 : (i 1).val < 7 := (i 1).isLt
  have hN : cfg0.N = 64 := N_0
  refine ⟨⟨(i 0).val / 4096, by rw [hN]; omega⟩, flush0_6 _, ?_⟩
  rw [mem_blk]
  obtain ⟨-, -, -, -, -, -, -, -, -, -, -, -, e0, e1⟩ := idx_facts ⟨(i 0).val / 4096, by rw [hN]; omega⟩
  intro a
  match a with
  | ⟨0, _⟩ =>
    show win0_6.index _ (0 : Fin 2) * 4096 ≤ (i 0).val ∧ (i 0).val < win0_6.index _ (0 : Fin 2) * 4096 + 4096
    rw [e0]; show (i 0).val / 4096 * 4096 ≤ (i 0).val ∧ (i 0).val < (i 0).val / 4096 * 4096 + 4096; omega
  | ⟨1, _⟩ =>
    show win0_6.index _ (1 : Fin 2) * 7 ≤ (i 1).val ∧ (i 1).val < win0_6.index _ (1 : Fin 2) * 7 + 7
    rw [e1]; omega

/-- The result array after the last point is the logits array. -/
theorem final_out (c : Dev nD) : (dats m 0 c).arrAt 6 cfg0.N = outArr m c :=
  (dats m 0 c).arrAt_eq_of_cover 6 (outArr m c) (fun t _ => flushed_eq m c t) (covered)

end Cert.KernelIdeal.Hand

end
-- ==== Proof.KernelRun.lean ====
/-
  The kernel program's run, with its result named.

  The generated frame run ends with every array of the pipeline at what the library computes from the proof data and every other
  buffer at what the host lines after the region make of it. Read at the result buffer and at the arguments this says: the
  result is the after-region lines applied to the contents the region leaves — its [262144, 7] output array at the logits array,
  every other buffer as the region found it — and the nine arguments end as launched.
-/
import proofs.«161554_j670014898684_1_alg».proof.Proof.Gen.KernelIdeal.Frame
import proofs.«161554_j670014898684_1_alg».proof.Proof.KernelValue

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host lines after the region, stretch by stretch. -/
abbrev tailStretches : List (List (HloOp τ sig (Elt Ideal))) :=
  [hostOps1, hostOps1_1, hostOps1_2, hostOps1_3, hostOps1_4, hostOps1_5, hostOps1_6]

/-- What core c's buffers hold when the region is left: the pipeline's arrays as the proof data has them after the last
    point, every other buffer as the region found it. -/
abbrev regionExit (c : Dev nD) : Valuation τ sig (Elt Ideal) :=
  Pipeline.withArrays spec0 c (V0 m c) fun w => (dats m 0 c).arrAt w cfg0.N

/-- The result buffer after the run: the after-region lines applied to those contents. -/
abbrev resultOf (c : Dev nD) : Buf (Elt Ideal) ((c.tc : Thread nD τ).loc main_v54) :=
  Pipeline.afterTail₀ cfgs (dats m) 0 (V0 m) (tailStretches) c main_v54

theorem resultOf_eq (c : Dev nD) :
    resultOf m c = StableHlo.after (List.flatten (tailStretches)) (regionExit m c) (Proc.devRef .tc main_v54) := rfl

/-- The output array is left at the logits array. -/
theorem exit_out (c : Dev nD) : regionExit m c (Proc.devRef .tc main_v34) = outArr m c :=
  (Pipeline.withArrays_arr spec0 launch0.win.arr_inj c (V0 m c) _ 6).trans (final_out m c)

/-- The flag valid, the rank g_idx, the batch ids and the mask are no arrays of the pipeline: left as the region found them. -/
theorem exit_v21 (c : Dev nD) : regionExit m c (Proc.devRef .tc main_v21) = V0 m c (Proc.devRef .tc main_v21) :=
  Pipeline.withArrays_of_ne _ c (V0 m c) _ main_v21 (by decide)
theorem exit_v18 (c : Dev nD) : regionExit m c (Proc.devRef .tc main_v18) = V0 m c (Proc.devRef .tc main_v18) :=
  Pipeline.withArrays_of_ne _ c (V0 m c) _ main_v18 (by decide)
theorem exit_arg3 (c : Dev nD) : regionExit m c (Proc.devRef .tc main_arg3) = m ((c : Thread nD τ).loc main_arg3) :=
  (Pipeline.withArrays_of_ne _ c (V0 m c) _ main_arg3 (by decide)).trans (V_main_arg3 m c)
theorem exit_arg4 (c : Dev nD) : regionExit m c (Proc.devRef .tc main_arg4) = m ((c : Thread nD τ).loc main_arg4) :=
  (Pipeline.withArrays_of_ne _ c (V0 m c) _ main_arg4 (by decide)).trans (V_main_arg4 m c)

/-- Every weakly fair execution of the kernel program terminates with the result buffer at `resultOf` and the arguments as
    launched. -/
theorem run : θ_run defs (onTc (τ := τ) (main (F := Ideal))) ⟨m, fun _ => 0, ρ⟩ (fun r => ∀ c : Dev nD,
      r.2.mem ((c.tc : Thread nD τ).loc main_v54) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v54 (Pipeline.mem_restRefs_of main_v54 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c))⟩)
    (run_main m ρ)

end Cert.KernelIdeal.Hand

end
-- ==== Proof.AgreeDefs.lean ====
/-
  The host code the two programs share computes the same values.

  Around the perceptron both programs run the same host operations: before it, the integer part (the running count of selected
  rows, the per-batch counts by a scatter-add, their exclusive running sum, each row's rank g_idx within its batch and the flag
  valid); after it, the placement (rows routed by (batch, rank) into a [4096, 9, 7] table of -1e9, the first 8 slots kept, masked,
  laid out as [4096, 56]). Operation by operation the two texts are the same functions applied to corresponding buffers, so
  equal inputs give equal outputs; no operation is opened. Each part is read in two pieces, cut just before its one
  concatenation, so that a concatenation's operands are buffers the piece starts from.
-/
import proofs.«161554_j670014898684_1_alg».proof.Proof.RefRun
import proofs.«161554_j670014898684_1_alg».proof.Proof.Gen.KernelIdeal.Launch
import Idealize.ShloMosaic.Lib.StableHlo.Run
import Idealize.ShloMosaic.Lib.Pipeline.Frame

noncomputable section

namespace Cert.Proof.HostAgree

open Idealize.ShloMosaic Idealize.ShloMosaic.TcCoe Idealize.SL.Sem Idealize.ShloMosaic.StableHlo

variable {F : FTy → Type} [FloatOps F]

/-- Contents of the kernel program's and of the reference's buffers. -/
abbrev KVal (F : FTy → Type) := Valuation Cert.KernelIdeal.τ Cert.KernelIdeal.sig (Elt F)
abbrev RVal (F : FTy → Type) := Valuation Cert.ReferenceIdeal.τ Cert.ReferenceIdeal.sig (Elt F)

/-- The kernel program's host operations before its region, -/
abbrev kHead : List (HloOp Cert.KernelIdeal.τ Cert.KernelIdeal.sig (Elt F)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4]
/-- and after it. -/
abbrev kTail : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5, Cert.KernelIdeal.Gen.hostOps1_6]

/-- The integer part up to its concatenation (14 operations) and from it on, in each program; -/
abbrev kHeadA : List (HloOp Cert.KernelIdeal.τ Cert.KernelIdeal.sig (Elt F)) := kHead.take 14
abbrev kHeadB : List (HloOp Cert.KernelIdeal.τ Cert.KernelIdeal.sig (Elt F)) := kHead.drop 14
abbrev rHeadA : List (HloOp Cert.ReferenceIdeal.τ Cert.ReferenceIdeal.sig (Elt F)) := Cert.ReferenceIdeal.HostRun.opsIdx.take 14
abbrev rHeadB : List (HloOp Cert.ReferenceIdeal.τ Cert.ReferenceIdeal.sig (Elt F)) := Cert.ReferenceIdeal.HostRun.opsIdx.drop 14
/-- the placement up to its concatenation (26 operations) and from it on. -/
abbrev kTailA : List (HloOp Cert.KernelIdeal.τ Cert.KernelIdeal.sig (Elt F)) := kTail.take 26
abbrev kTailB : List (HloOp Cert.KernelIdeal.τ Cert.KernelIdeal.sig (Elt F)) := kTail.drop 26
abbrev rTailA : List (HloOp Cert.ReferenceIdeal.τ Cert.ReferenceIdeal.sig (Elt F)) := Cert.ReferenceIdeal.HostRun.opsTail.take 26
abbrev rTailB : List (HloOp Cert.ReferenceIdeal.τ Cert.ReferenceIdeal.sig (Elt F)) := Cert.ReferenceIdeal.HostRun.opsTail.drop 26

/-- Spells a piece as its literal list of operations. -/
macro "spell_ops" : tactic =>
  `(tactic| simp only [kHeadA, kHeadB, rHeadA, rHeadB, kTailA, kTailB, rTailA, rTailB, kHead, kTail,
      Cert.ReferenceIdeal.HostRun.opsIdx, Cert.ReferenceIdeal.HostRun.opsTail,
      Cert.KernelIdeal.Gen.hostOps0, Cert.KernelIdeal.Gen.hostOps0_1, Cert.KernelIdeal.Gen.hostOps0_2,
      Cert.KernelIdeal.Gen.hostOps0_3, Cert.KernelIdeal.Gen.hostOps0_4, Cert.KernelIdeal.Gen.hostOps1, Cert.KernelIdeal.Gen.hostOps1_1,
      Cert.KernelIdeal.Gen.hostOps1_2, Cert.KernelIdeal.Gen.hostOps1_3, Cert.KernelIdeal.Gen.hostOps1_4, Cert.KernelIdeal.Gen.hostOps1_5,
      Cert.KernelIdeal.Gen.hostOps1_6, List.flatten_cons, List.flatten_nil, List.append_nil, List.cons_append, List.nil_append,
      List.take_succ_cons, List.take_zero, List.drop_succ_cons, List.drop_zero])

/-- Reads each side's buffer through its piece, then uses the given equalities of the starting contents. -/
macro "read_both" : tactic =>
  `(tactic| (spell_ops; after_results_simp; (try simp only [TRef.ofBuf, TRef.toBuf, cast_eq])))

/-- The dimension numbers the shared scatters and the shared gather carry are the same in both programs: the per-batch
    count, -/
theorem scatterCount_eq : Cert.KernelIdeal.scatter_S4096_S262144x1_S262144_n_0_0_1
    = Cert.ReferenceIdeal.scatter_S4096_S262144x1_S262144_n_0_0_1 := rfl
/-- the read of each row's batch offset, -/
theorem gatherOffset_eq : Cert.KernelIdeal.gather_S4096_S262144x1_S262144_n_0_n_n_0_1_1
    = Cert.ReferenceIdeal.gather_S4096_S262144x1_S262144_n_0_n_n_0_1_1 := rfl
/-- and the placement of the rows. -/
theorem scatterPlace_eq : Cert.KernelIdeal.scatter_S4096x9x7_S262144x2_S262144x7_1_01_01_1
    = Cert.ReferenceIdeal.scatter_S4096x9x7_S262144x2_S262144x7_1_01_01_1 := rfl

/-- Closes an equation between the two programs' spellings of one term: the dimension numbers made the same, what is left
    differs in the names of shapes and of proofs only, so no operation is ever opened. -/
macro "same_text" : tactic =>
  `(tactic| all_goals ((try simp only [scatterCount_eq, gatherOffset_eq, scatterPlace_eq]) <;> with_reducible rfl))

end Cert.Proof.HostAgree

end
-- ==== Proof.AgreeHead.lean ====
/-
  The integer part computes the same values in both programs: first the running count of selected rows, the leading zero
  and the running sum of the per-batch counts from equal masks and batch ids; then, from those, each row's rank within its
  batch and the flag kept.
-/
import proofs.«161554_j670014898684_1_alg».proof.Proof.AgreeDefs

noncomputable section

namespace Cert.Proof.HostAgree

open Idealize.ShloMosaic Idealize.ShloMosaic.TcCoe Idealize.SL.Sem Idealize.ShloMosaic.StableHlo

variable {F : FTy → Type} [FloatOps F]

section HeadA
variable (L : KVal F) (L' : RVal F)
  (h2 : (L (Proc.devRef .tc Cert.KernelIdeal.main_arg2) : IVec Cert.ReferenceIdeal.S262144 1) = L' (Proc.devRef .tc Cert.ReferenceIdeal.main_arg2))
  (h3 : (L (Proc.devRef .tc Cert.KernelIdeal.main_arg3) : IVec Cert.ReferenceIdeal.S262144 32) = L' (Proc.devRef .tc Cert.ReferenceIdeal.main_arg3))
include h2 h3

set_option maxHeartbeats 4000000 in
/-- The running count of selected rows. -/
theorem headA_v1 : (after kHeadA L (Proc.devRef .tc Cert.KernelIdeal.main_v1) : IVec Cert.ReferenceIdeal.S262144 32)
    = after rHeadA L' (Proc.devRef .tc Cert.ReferenceIdeal.main_v1) := by
  read_both
  rw [h2]
  same_text

set_option maxHeartbeats 4000000 in
/-- The leading zero of the exclusive running sum. -/
theorem headA_v5 : (after kHeadA L (Proc.devRef .tc Cert.KernelIdeal.main_v5) : IVec Cert.ReferenceIdeal.S1 32)
    = after rHeadA L' (Proc.devRef .tc Cert.ReferenceIdeal.main_v5) := by
  read_both
  same_text

set_option maxHeartbeats 4000000 in
/-- The running sum of the per-batch counts, without its last entry. -/
theorem headA_v7 : (after kHeadA L (Proc.devRef .tc Cert.KernelIdeal.main_v7) : IVec Cert.ReferenceIdeal.S4095 32)
    = after rHeadA L' (Proc.devRef .tc Cert.ReferenceIdeal.main_v7) := by
  read_both
  rw [h2, h3]
  same_text

end HeadA

section HeadB
variable (W : KVal F) (W' : RVal F)
  (h1 : (W (Proc.devRef .tc Cert.KernelIdeal.main_v1) : IVec Cert.ReferenceIdeal.S262144 32) = W' (Proc.devRef .tc Cert.ReferenceIdeal.main_v1))
  (h5 : (W (Proc.devRef .tc Cert.KernelIdeal.main_v5) : IVec Cert.ReferenceIdeal.S1 32) = W' (Proc.devRef .tc Cert.ReferenceIdeal.main_v5))
  (h7 : (W (Proc.devRef .tc Cert.KernelIdeal.main_v7) : IVec Cert.ReferenceIdeal.S4095 32) = W' (Proc.devRef .tc Cert.ReferenceIdeal.main_v7))
  (h2 : (W (Proc.devRef .tc Cert.KernelIdeal.main_arg2) : IVec Cert.ReferenceIdeal.S262144 1) = W' (Proc.devRef .tc Cert.ReferenceIdeal.main_arg2))
  (h3 : (W (Proc.devRef .tc Cert.KernelIdeal.main_arg3) : IVec Cert.ReferenceIdeal.S262144 32) = W' (Proc.devRef .tc Cert.ReferenceIdeal.main_arg3))
include h1 h5 h7 h2 h3

set_option maxHeartbeats 4000000 in
/-- Each row's rank within its batch. -/
theorem headB_v18 : (after kHeadB W (Proc.devRef .tc Cert.KernelIdeal.main_v18) : IVec Cert.ReferenceIdeal.S262144 32)
    = after rHeadB W' (Proc.devRef .tc Cert.ReferenceIdeal.main_v18) := by
  read_both
  rw [h1, h5, h7, h3]
  same_text

set_option maxHeartbeats 4000000 in
/-- Whether a row is kept. -/
theorem headB_v21 : (after kHeadB W (Proc.devRef .tc Cert.KernelIdeal.main_v21) : IVec Cert.ReferenceIdeal.S262144 1)
    = after rHeadB W' (Proc.devRef .tc Cert.ReferenceIdeal.main_v21) := by
  read_both
  rw [h1, h5, h7, h2, h3]
  same_text

end HeadB

end Cert.Proof.HostAgree

end
-- ==== Proof.AgreeTailA.lean ====
/-
  The placement computes the same values in both programs: first the table of -1e9 and the two coordinate columns of each
  row's slot from equal flags, ranks and batch ids; then, from those and equal logits and masks, the result.
-/
import proofs.«161554_j670014898684_1_alg».proof.Proof.AgreeDefs

noncomputable section

namespace Cert.Proof.HostAgree

open Idealize.ShloMosaic Idealize.ShloMosaic.TcCoe Idealize.SL.Sem Idealize.ShloMosaic.StableHlo

variable {F : FTy → Type} [FloatOps F]

section TailA
variable (W : KVal F) (W' : RVal F)
  (h21 : (W (Proc.devRef .tc Cert.KernelIdeal.main_v21) : IVec Cert.ReferenceIdeal.S262144 1) = W' (Proc.devRef .tc Cert.ReferenceIdeal.main_v21))
  (h18 : (W (Proc.devRef .tc Cert.KernelIdeal.main_v18) : IVec Cert.ReferenceIdeal.S262144 32) = W' (Proc.devRef .tc Cert.ReferenceIdeal.main_v18))
  (h3 : (W (Proc.devRef .tc Cert.KernelIdeal.main_arg3) : IVec Cert.ReferenceIdeal.S262144 32) = W' (Proc.devRef .tc Cert.ReferenceIdeal.main_arg3))
include h21 h18 h3

set_option maxHeartbeats 4000000 in
/-- The table of -1e9 the rows are placed into. -/
theorem tailA_table : (after kTailA W (Proc.devRef .tc Cert.KernelIdeal.main_v35) : FVec F Cert.ReferenceIdeal.S4096x9x7 .f32)
    = after rTailA W' (Proc.devRef .tc Cert.ReferenceIdeal.main_v42) := by
  read_both
  same_text

set_option maxHeartbeats 4000000 in
/-- The batch coordinate of each row's slot. -/
theorem tailA_bcol : (after kTailA W (Proc.devRef .tc Cert.KernelIdeal.main_v48) : IVec Cert.ReferenceIdeal.S262144x1 32)
    = after rTailA W' (Proc.devRef .tc Cert.ReferenceIdeal.main_v55) := by
  read_both
  rw [h21, h3]
  same_text

set_option maxHeartbeats 4000000 in
/-- The rank coordinate of each row's slot. -/
theorem tailA_gcol : (after kTailA W (Proc.devRef .tc Cert.KernelIdeal.main_v49) : IVec Cert.ReferenceIdeal.S262144x1 32)
    = after rTailA W' (Proc.devRef .tc Cert.ReferenceIdeal.main_v56) := by
  read_both
  rw [h21, h18]
  same_text

end TailA

end Cert.Proof.HostAgree

end
-- ==== Proof.AgreeTailB.lean ====
/-
  The placement's last piece computes the same value in both programs.

  From the table of -1e9, the two coordinate columns, the per-row logits and the mask, the last piece concatenates the columns into
  [262144, 2] slot indices, writes each row's logits at its slot, keeps the first 8 slots of every batch, masks, and lays the
  result out as [4096, 56]. When both programs' pieces start from the same five arrays, reading either piece gives one and the
  same text over those arrays, up to the names of shapes and of the scatter's dimension numbers.
-/
import proofs.«161554_j670014898684_1_alg».proof.Proof.AgreeDefs

noncomputable section

namespace Cert.Proof.HostAgree

open Idealize.ShloMosaic Idealize.ShloMosaic.TcCoe Idealize.SL.Sem Idealize.ShloMosaic.StableHlo

variable {F : FTy → Type} [FloatOps F]

set_option maxHeartbeats 4000000 in
/-- The result: the table with the rows placed, its first 8 slots, masked, as [4096, 56]. The five arrays the piece reads are
    named once (c the mask, T the table, b and g the coordinate columns, O the logits) and each program's buffers hold them. -/
theorem tailB_result (X : KVal F) (X' : RVal F)
    (c : IVec Cert.ReferenceIdeal.S4096x8x7 1) (T : FVec F Cert.ReferenceIdeal.S4096x9x7 .f32)
    (b g : IVec Cert.ReferenceIdeal.S262144x1 32) (O : FVec F Cert.ReferenceIdeal.S262144x7 .f32)
    (kc : X (Proc.devRef .tc Cert.KernelIdeal.main_arg4) = c) (kT : X (Proc.devRef .tc Cert.KernelIdeal.main_v35) = T)
    (kb : X (Proc.devRef .tc Cert.KernelIdeal.main_v48) = b) (kg : X (Proc.devRef .tc Cert.KernelIdeal.main_v49) = g)
    (kO : X (Proc.devRef .tc Cert.KernelIdeal.main_v34) = O)
    (rc : X' (Proc.devRef .tc Cert.ReferenceIdeal.main_arg4) = c) (rT : X' (Proc.devRef .tc Cert.ReferenceIdeal.main_v42) = T)
    (rb : X' (Proc.devRef .tc Cert.ReferenceIdeal.main_v55) = b) (rg : X' (Proc.devRef .tc Cert.ReferenceIdeal.main_v56) = g)
    (rO : X' (Proc.devRef .tc Cert.ReferenceIdeal.main_v41) = O) :
    (after kTailB X (Proc.devRef .tc Cert.KernelIdeal.main_v54) : FVec F Cert.ReferenceIdeal.S4096x56 .f32)
      = after rTailB X' (Proc.devRef .tc Cert.ReferenceIdeal.main_v61) := by
  spell_ops
  -- one pass: each operation's result read at its buffer, and every read of a starting buffer replaced by its name
  simp (disch := decide) only [after_cons, after_nil, nullary_result', unary_result', binary_result', ternary_result',
    reshape_result', nullary_result_ne', unary_result_ne', binary_result_ne', ternary_result_ne', reshape_result_ne',
    TRef.ofBuf, TRef.toBuf, cast_eq, kc, kT, kb, kg, kO, rc, rT, rb, rg, rO]
  -- the two coordinate columns sit inside the concatenation's list of operands, where the pass above does not reach
  rw [kb, kg, rb, rg]
  -- the final reshape spells its shapes through the buffers' types: peel it; the body is then one text in two namings
  all_goals (
    refine funext fun i => ?_
    refine congrFun (congrArg (fun z => shapeCast Cert.ReferenceIdeal.S4096x56 z Cert.ReferenceIdeal.Gen.shapeCasts_S4096x8x7_S4096x56) ?_) i
    same_text)

end Cert.Proof.HostAgree

end
-- ==== Proof.AgreePass.lean ====
/-
  What the pieces leave untouched, and each part as its two pieces one after the other.
-/
import proofs.«161554_j670014898684_1_alg».proof.Proof.AgreeDefs

noncomputable section

namespace Cert.Proof.HostAgree

open Idealize.ShloMosaic Idealize.ShloMosaic.TcCoe Idealize.SL.Sem Idealize.ShloMosaic.StableHlo

variable {F : FTy → Type} [FloatOps F]

section PassThrough
variable (L : KVal F) (L' : RVal F)

set_option maxHeartbeats 4000000 in
/-- The first piece of the integer part writes neither integer input, in either program; -/
theorem kHeadA_arg2 : after kHeadA L (Proc.devRef .tc Cert.KernelIdeal.main_arg2) = L (Proc.devRef .tc Cert.KernelIdeal.main_arg2) := by
  spell_ops; after_results_simp
set_option maxHeartbeats 4000000 in
theorem kHeadA_arg3 : after kHeadA L (Proc.devRef .tc Cert.KernelIdeal.main_arg3) = L (Proc.devRef .tc Cert.KernelIdeal.main_arg3) := by
  spell_ops; after_results_simp
set_option maxHeartbeats 4000000 in
theorem rHeadA_arg2 : after rHeadA L' (Proc.devRef .tc Cert.ReferenceIdeal.main_arg2) = L' (Proc.devRef .tc Cert.ReferenceIdeal.main_arg2) := by
  spell_ops; after_results_simp
set_option maxHeartbeats 4000000 in
theorem rHeadA_arg3 : after rHeadA L' (Proc.devRef .tc Cert.ReferenceIdeal.main_arg3) = L' (Proc.devRef .tc Cert.ReferenceIdeal.main_arg3) := by
  spell_ops; after_results_simp

set_option maxHeartbeats 4000000 in
/-- the first piece of the placement writes neither the logits nor the mask. -/
theorem kTailA_out : after kTailA L (Proc.devRef .tc Cert.KernelIdeal.main_v34) = L (Proc.devRef .tc Cert.KernelIdeal.main_v34) := by
  spell_ops; after_results_simp
set_option maxHeartbeats 4000000 in
theorem kTailA_arg4 : after kTailA L (Proc.devRef .tc Cert.KernelIdeal.main_arg4) = L (Proc.devRef .tc Cert.KernelIdeal.main_arg4) := by
  spell_ops; after_results_simp
set_option maxHeartbeats 4000000 in
theorem rTailA_out : after rTailA L' (Proc.devRef .tc Cert.ReferenceIdeal.main_v41) = L' (Proc.devRef .tc Cert.ReferenceIdeal.main_v41) := by
  spell_ops; after_results_simp
set_option maxHeartbeats 4000000 in
theorem rTailA_arg4 : after rTailA L' (Proc.devRef .tc Cert.ReferenceIdeal.main_arg4) = L' (Proc.devRef .tc Cert.ReferenceIdeal.main_arg4) := by
  spell_ops; after_results_simp

/-- Each part is its two pieces one after the other. -/
theorem kHead_pieces : after kHead L = after kHeadB (after kHeadA L) := by
  rw [← StableHlo.after_append, List.take_append_drop]
theorem rHead_pieces : after Cert.ReferenceIdeal.HostRun.opsIdx L' = after rHeadB (after rHeadA L') := by
  rw [← StableHlo.after_append, List.take_append_drop]
theorem kTail_pieces : after kTail L = after kTailB (after kTailA L) := by
  rw [← StableHlo.after_append, List.take_append_drop]
theorem rTail_pieces : after Cert.ReferenceIdeal.HostRun.opsTail L' = after rTailB (after rTailA L') := by
  rw [← StableHlo.after_append, List.take_append_drop]

end PassThrough

end Cert.Proof.HostAgree

end
-- ==== Proof.KernelHost.lean ====
/-
  The kernel's logits array as a function of the launch arguments.

  Before the region the host lays out the region's operands: the upper half of W1 by a slice; the projection
  global · W1[128:] as one [4096, 64] product and its rows gathered by the batch ids (ids below zero moved up by 4096, then clamped
  by the gather); b1 and b2 reshaped to rows. Reading these at an entry turns the body's formula on the region's arrays into the
  specification's logit: row r of the gathered product is the product's row ρ r, which is Σ_k global[ρ r, k] · W1[128 + k, h] —
  selecting a row of a product is the product of the selected row.
-/
import proofs.«161554_j670014898684_1_alg».proof.Proof.KernelValue
import proofs.«161554_j670014898684_1_alg».proof.Proof.Spec
import proofs.«161554_j670014898684_1_alg».proof.Proof.LibPlainDot
import proofs.«161554_j670014898684_1_alg».proof.Proof.LibRowOps
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.StableHlo

section AnyFloats
variable {F : FTy → Type} [FloatOps F]

/-- The column of start indices the row gather reads: a batch id below zero is moved up by 4096. -/
def rowStart (batch : IVec S262144 32) : IVec S262144x1 32 :=
  broadcastInDim S262144x1 ![0] bcast_S262144_S262144x1_0
    (select (cmpi .slt batch (broadcastInDim S262144 ![] bcast_S_S262144 (constantI S_ 32 0#32)))
      (addi batch (broadcastInDim S262144 ![] bcast_S_S262144 (constantI S_ 32 4096#32))) batch)

/-- The host operations before the region, as one line. -/
abbrev headOps : List (HloOp τ sig (Elt F)) := List.flatten [hostOps0, hostOps0_1, hostOps0_2, hostOps0_3, hostOps0_4]

set_option maxHeartbeats 4000000 in
/-- They leave the upper half of W1 in the weight window's array, -/
theorem head_v22 (W : Valuation τ sig (Elt F)) :
    after headOps W (main_v22 : DevRef τ sig) = extractStridedSlice S128x64 ![0, 0] (W (main_arg5 : DevRef τ sig)) slices_S256x64_S128x64_0_0 := by
  simp only [headOps, hostOps0, hostOps0_1, hostOps0_2, hostOps0_3, hostOps0_4, List.flatten_cons, List.flatten_nil, List.append_nil,
    List.cons_append, List.nil_append]
  after_results_simp
  try simp only [TRef.ofBuf, TRef.toBuf, cast_eq]
  try rfl

set_option maxHeartbeats 4000000 in
/-- the gathered projection in the projection window's array, -/
theorem head_v31 (W : Valuation τ sig (Elt F)) :
    after headOps W (main_v31 : DevRef τ sig)
      = Host.gather gather_S4096x64_S262144x1_S262144x64_1_0_n_n_0_1_164
          (Host.dotGeneral dot_S4096x128_S128x64_S4096x64_1_0_0_1_n_n none (W (main_arg1 : DevRef τ sig))
            (extractStridedSlice S128x64 ![128, 0] (W (main_arg5 : DevRef τ sig)) slices_S256x64_S128x64_128_0))
          (rowStart (W (main_arg3 : DevRef τ sig))) := by
  simp only [headOps, hostOps0, hostOps0_1, hostOps0_2, hostOps0_3, hostOps0_4, List.flatten_cons, List.flatten_nil, List.append_nil,
    List.cons_append, List.nil_append]
  after_results_simp
  try simp only [TRef.ofBuf, TRef.toBuf, cast_eq]
  try rfl

set_option maxHeartbeats 4000000 in
/-- b1 as a row, -/
theorem head_v32 (W : Valuation τ sig (Elt F)) :
    after headOps W (main_v32 : DevRef τ sig) = shapeCast S1x64 (W (main_arg6 : DevRef τ sig)) shapeCasts_S64_S1x64 := by
  simp only [headOps, hostOps0, hostOps0_1, hostOps0_2, hostOps0_3, hostOps0_4, List.flatten_cons, List.flatten_nil, List.append_nil,
    List.cons_append, List.nil_append]
  after_results_simp
  try simp only [TRef.ofBuf, TRef.toBuf, cast_eq]
  try rfl

set_option maxHeartbeats 4000000 in
/-- and b2 as a row. -/
theorem head_v33 (W : Valuation τ sig (Elt F)) :
    after headOps W (main_v33 : DevRef τ sig) = shapeCast S1x7 (W (main_arg8 : DevRef τ sig)) shapeCasts_S7_S1x7 := by
  simp only [headOps, hostOps0, hostOps0_1, hostOps0_2, hostOps0_3, hostOps0_4, List.flatten_cons, List.flatten_nil, List.append_nil,
    List.cons_append, List.nil_append]
  after_results_simp
  try simp only [TRef.ofBuf, TRef.toBuf, cast_eq]
  try rfl

end AnyFloats

variable (m : (ℓ : Loc nD τ sig) → Buf (Elt Ideal) ℓ)

/-- The product's dimension numbers are the plain ones: [4096, 128] by [128, 64]. -/
theorem dotP_plain : dot_S4096x128_S128x64_S4096x64_1_0_0_1_n_n = DotDims.plain 4096 128 64 := rfl
/-- The gather's dimension numbers are those of a row gather from a [4096, 64] table. -/
theorem gather_rows : gather_S4096x64_S262144x1_S262144x64_1_0_n_n_0_1_164
    = Cert.Lib.RowOps.gath2 4096 64 262144 gather_S4096x64_S262144x1_S262144x64_1_0_n_n_0_1_164_wf := rfl

/-- A vector reshaped to a [1, n] row reads the vector's entry in the same column. -/
theorem row_apply {n : Nat} (v : (⟨1, ![n]⟩ : Shape).Idx → EReal) (h : (⟨1, ![n]⟩ : Shape).ShapeCasts ⟨2, ![1, n]⟩) (j : Fin n) :
    shapeCast ⟨2, ![1, n]⟩ v h (ix2 0 j) = v (ix1 j) := by
  refine shapeCast_apply v h (ix2 0 j) (ix1 j) ?_
  rw [Shape.rowMajor_val_one, Shape.rowMajor_val_two]
  show j.val = 0 * n + j.val
  omega

/-- The feature array is the first argument. -/
theorem xArr_eq (c : Dev nD) : xArr m c = m ((c : Thread nD τ).loc main_arg0) := V_main_arg0 m c
/-- The second weight array is the eighth argument. -/
theorem w2Arr_eq (c : Dev nD) : w2Arr m c = m ((c : Thread nD τ).loc main_arg7) := V_main_arg7 m c
/-- The weight window's array is the upper half of W1. -/
theorem wArr_eq (c : Dev nD) : wArr m c
    = extractStridedSlice S128x64 ![0, 0] (m ((c : Thread nD τ).loc main_arg5)) slices_S256x64_S128x64_0_0 :=
  head_v22 (F := Ideal) (fun b => m (c, b))
/-- The projection window's array is the gathered projection. -/
theorem gArr_eq (c : Dev nD) : gArr m c
    = Host.gather gather_S4096x64_S262144x1_S262144x64_1_0_n_n_0_1_164
        (Host.dotGeneral (F := Ideal) (φ₁ := .f32) (φ₂ := .f32) dot_S4096x128_S128x64_S4096x64_1_0_0_1_n_n none (m ((c : Thread nD τ).loc main_arg1))
          (extractStridedSlice S128x64 ![128, 0] (m ((c : Thread nD τ).loc main_arg5)) slices_S256x64_S128x64_128_0))
        (rowStart (m ((c : Thread nD τ).loc main_arg3))) :=
  head_v31 (F := Ideal) (fun b => m (c, b))
/-- The first bias window's array is b1 as a row. -/
theorem b1Arr_eq (c : Dev nD) : b1Arr m c = shapeCast S1x64 (m ((c : Thread nD τ).loc main_arg6)) shapeCasts_S64_S1x64 :=
  head_v32 (F := Ideal) (fun b => m (c, b))
/-- The second bias window's array is b2 as a row. -/
theorem b2Arr_eq (c : Dev nD) : b2Arr m c = shapeCast S1x7 (m ((c : Thread nD τ).loc main_arg8)) shapeCasts_S7_S1x7 :=
  head_v33 (F := Ideal) (fun b => m (c, b))

/-- The rows 0 … 127 of W1. -/
theorem upper_apply (a5 : (⟨2, ![256, 64]⟩ : Shape).Idx → EReal) (k : Fin 128) (h : Fin 64) :
    extractStridedSlice S128x64 ![0, 0] a5 slices_S256x64_S128x64_0_0 (ix2 k h) = a5 (ix2 ⟨k.val, by omega⟩ h) := by
  refine extractStridedSlice_apply ![0, 0] a5 slices_S256x64_S128x64_0_0 (ix2 k h) (ix2 ⟨k.val, by omega⟩ h) fun a => ?_
  match a with
  | ⟨0, _⟩ => exact (Nat.zero_add _).symm
  | ⟨1, _⟩ => exact (Nat.zero_add _).symm

/-- The rows 128 … 255 of W1. -/
theorem lower_apply (a5 : (⟨2, ![256, 64]⟩ : Shape).Idx → EReal) (k : Fin 128) (h : Fin 64) :
    extractStridedSlice S128x64 ![128, 0] a5 slices_S256x64_S128x64_128_0 (ix2 k h) = a5 (ix2 ⟨128 + k.val, by omega⟩ h) := by
  refine extractStridedSlice_apply ![128, 0] a5 slices_S256x64_S128x64_128_0 (ix2 k h) (ix2 ⟨128 + k.val, by omega⟩ h) fun a => ?_
  match a with
  | ⟨0, _⟩ => rfl
  | ⟨1, _⟩ => exact (Nat.zero_add _).symm

/-- Row r of the gathered projection is the projection's row the clamped, shifted batch id names: the sum over k of that
    row of the global table times the lower half of W1. -/
theorem gathered_apply (a1 : FVec Ideal S4096x128 .f32) (a5 : FVec Ideal S256x64 .f32) (a3 : IVec S262144 32)
    (r : Fin 262144) (h : Fin 64) :
    Host.gather gather_S4096x64_S262144x1_S262144x64_1_0_n_n_0_1_164
        (Host.dotGeneral (F := Ideal) (φ₁ := .f32) (φ₂ := .f32) dot_S4096x128_S128x64_S4096x64_1_0_0_1_n_n none a1
          (extractStridedSlice S128x64 ![128, 0] a5 slices_S256x64_S128x64_128_0))
        (rowStart a3) (ix2 r h)
      = ∑ k : Fin 128, a1 (ix2 (Cert.Spec.rowOf (B := 4096) (by decide) (rowStart a3) r) k) * a5 (ix2 ⟨128 + k.val, by omega⟩ h) := by
  rw [gather_rows]
  refine (Cert.Lib.RowOps.gath2_apply (by decide) _ _ (rowStart a3) r h).trans ?_
  rw [dotP_plain]
  refine (Cert.Lib.PlainDot.dotGeneral_apply none a1 _ _ h).trans ?_
  refine Finset.sum_congr rfl fun k _ => ?_
  rw [lower_apply]
  rfl

/-- The body's formula on the region's arrays, those spelt from the arguments, is the specification's logit. -/
theorem formula_eq (a0 : FVec Ideal S262144x128 .f32) (a1 : FVec Ideal S4096x128 .f32) (a3 : IVec S262144 32)
    (a5 : FVec Ideal S256x64 .f32) (a6 : FVec Ideal S64 .f32) (a7 : FVec Ideal S64x7 .f32) (a8 : FVec Ideal S7 .f32)
    (r : Fin 262144) (d : Fin 7) :
    (∑ h : Fin 64, max ((∑ k : Fin 128, a0 (ix2 r k) * extractStridedSlice S128x64 ![0, 0] a5 slices_S256x64_S128x64_0_0 (ix2 k h))
          + Host.gather gather_S4096x64_S262144x1_S262144x64_1_0_n_n_0_1_164
              (Host.dotGeneral (F := Ideal) (φ₁ := .f32) (φ₂ := .f32) dot_S4096x128_S128x64_S4096x64_1_0_0_1_n_n none a1
                (extractStridedSlice S128x64 ![128, 0] a5 slices_S256x64_S128x64_128_0))
              (rowStart a3) (ix2 r h)
          + shapeCast S1x64 a6 shapeCasts_S64_S1x64 (ix2 0 h))
        (Ideal.ofBits .f32 0x00000000#32) * a7 (ix2 h d)) + shapeCast S1x7 a8 shapeCasts_S7_S1x7 (ix2 0 d)
      = Cert.Spec.logits a0 a1 a5 a6 a7 a8 (Cert.Spec.rowOf (B := 4096) (by decide) (rowStart a3)) (ix2 r d) := by
  simp only [Cert.Spec.logits, Cert.Spec.logit, Cert.Spec.hidden, upper_apply, gathered_apply, row_apply]

/-- The kernel's logits array is the specification's logits of the launch arguments, with the row map the clamped,
    shifted batch id. -/
theorem outArr_eq (c : Dev nD) :
    outArr m c = Cert.Spec.logits (m ((c : Thread nD τ).loc main_arg0)) (m ((c : Thread nD τ).loc main_arg1))
      (m ((c : Thread nD τ).loc main_arg5)) (m ((c : Thread nD τ).loc main_arg6)) (m ((c : Thread nD τ).loc main_arg7))
      (m ((c : Thread nD τ).loc main_arg8))
      (Cert.Spec.rowOf (B := 4096) (by decide) (rowStart (m ((c : Thread nD τ).loc main_arg3)))) := by
  funext i
  obtain ⟨r, d, rfl⟩ : ∃ (r : Fin 262144) (d : Fin 7), i = ix2 r d := ⟨i 0, i 1, eq_ix2 i⟩
  unfold outArr
  rw [xArr_eq, w2Arr_eq, wArr_eq, gArr_eq, b1Arr_eq, b2Arr_eq]
  exact formula_eq _ _ _ _ _ _ _ r d

end Cert.KernelIdeal.Hand

end
-- ==== Proof.Bridge.lean ====
/-
  The two programs end with the same result.

  From launch memories that agree on the nine arguments:
    * the integer parts agree (same operations on the same two integer inputs), so both programs place rows by the same flags
      valid and ranks g_idx;
    * the per-row logits agree: the kernel's output array is the specification's logits of the arguments (the body's formula
      block by block, the gathered projection read as the selected row of the product), and so is the reference's term
      (the product of the gathered rows): one function, with one row map, the batch id shifted and clamped;
    * the placements agree (same operations on equal flags, ranks, batch ids, mask and logits).
  Hence the reference's result buffer holds what the kernel program's holds.
-/
import proofs.«161554_j670014898684_1_alg».proof.Proof.AgreeHead
import proofs.«161554_j670014898684_1_alg».proof.Proof.AgreeTailA
import proofs.«161554_j670014898684_1_alg».proof.Proof.AgreeTailB
import proofs.«161554_j670014898684_1_alg».proof.Proof.AgreePass
import proofs.«161554_j670014898684_1_alg».proof.Proof.KernelHost
import proofs.«161554_j670014898684_1_alg».proof.Proof.KernelRun
import proofs.«161554_j670014898684_1_alg».proof.Proof.RefKeeps

noncomputable section

namespace Cert.Proof.Bridge

open Idealize.ShloMosaic Idealize.ShloMosaic.TcCoe Idealize.SL.Sem Idealize.ShloMosaic.StableHlo
open Cert.Proof.HostAgree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two spellings of the shifted batch ids are one function. -/
theorem rowStart_eq (a3 : IVec Cert.ReferenceIdeal.S262144 32) :
    Cert.KernelIdeal.Hand.rowStart a3 = Cert.ReferenceIdeal.HostValue.rowStart a3 := rfl

set_option maxHeartbeats 1000000 in
/-- The reference's result is the kernel program's. -/
theorem result_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (after Cert.ReferenceIdeal.HostRun.ops (launchContents m' c) (Proc.devRef .tc Cert.ReferenceIdeal.main_v61) : FVec Ideal Cert.ReferenceIdeal.S4096x56 .f32)
      = Cert.KernelIdeal.Hand.resultOf m c := by
  -- the launch contents of the two programs, and what the placement starts from in each
  let L : KVal Ideal := fun b => m (c, b)
  let L' : RVal Ideal := launchContents m' c
  let WA : KVal Ideal := Cert.KernelIdeal.Hand.regionExit m c
  let B : RVal Ideal := after Cert.ReferenceIdeal.HostRun.opsMlp (after Cert.ReferenceIdeal.HostRun.opsIdx L')
  have h2 : (L (Proc.devRef .tc Cert.KernelIdeal.main_arg2) : IVec Cert.ReferenceIdeal.S262144 1) = L' (Proc.devRef .tc Cert.ReferenceIdeal.main_arg2) := e2.symm
  have h3 : (L (Proc.devRef .tc Cert.KernelIdeal.main_arg3) : IVec Cert.ReferenceIdeal.S262144 32) = L' (Proc.devRef .tc Cert.ReferenceIdeal.main_arg3) := e3.symm
  -- the integer part
  have a2 : (after kHeadA L (Proc.devRef .tc Cert.KernelIdeal.main_arg2) : IVec Cert.ReferenceIdeal.S262144 1)
      = after rHeadA L' (Proc.devRef .tc Cert.ReferenceIdeal.main_arg2) := (kHeadA_arg2 L).trans (h2.trans (rHeadA_arg2 L').symm)
  have a3 : (after kHeadA L (Proc.devRef .tc Cert.KernelIdeal.main_arg3) : IVec Cert.ReferenceIdeal.S262144 32)
      = after rHeadA L' (Proc.devRef .tc Cert.ReferenceIdeal.main_arg3) := (kHeadA_arg3 L).trans (h3.trans (rHeadA_arg3 L').symm)
  have g18 := headB_v18 (after kHeadA L) (after rHeadA L') (headA_v1 L L' h2 h3) (headA_v5 L L' h2 h3) (headA_v7 L L' h2 h3) a2 a3
  have g21 := headB_v21 (after kHeadA L) (after rHeadA L') (headA_v1 L L' h2 h3) (headA_v5 L L' h2 h3) (headA_v7 L L' h2 h3) a2 a3
  rw [← kHead_pieces, ← rHead_pieces] at g18 g21
  -- what the placement reads
  have w21 : (WA (Proc.devRef .tc Cert.KernelIdeal.main_v21) : IVec Cert.ReferenceIdeal.S262144 1) = B (Proc.devRef .tc Cert.ReferenceIdeal.main_v21) :=
    (Cert.KernelIdeal.Hand.exit_v21 m c).trans (g21.trans (Cert.ReferenceIdeal.HostValue.mlp_keeps _ (r := Cert.ReferenceIdeal.main_v21) (by decide)).symm)
  have w18 : (WA (Proc.devRef .tc Cert.KernelIdeal.main_v18) : IVec Cert.ReferenceIdeal.S262144 32) = B (Proc.devRef .tc Cert.ReferenceIdeal.main_v18) :=
    (Cert.KernelIdeal.Hand.exit_v18 m c).trans (g18.trans (Cert.ReferenceIdeal.HostValue.mlp_keeps _ (r := Cert.ReferenceIdeal.main_v18) (by decide)).symm)
  have w3 : (WA (Proc.devRef .tc Cert.KernelIdeal.main_arg3) : IVec Cert.ReferenceIdeal.S262144 32) = B (Proc.devRef .tc Cert.ReferenceIdeal.main_arg3) :=
    (Cert.KernelIdeal.Hand.exit_arg3 m c).trans (e3.symm.trans (((Cert.ReferenceIdeal.HostValue.mlp_keeps _ (r := Cert.ReferenceIdeal.main_arg3) (by decide)).trans
      (Cert.ReferenceIdeal.HostValue.idx_keeps L' (r := Cert.ReferenceIdeal.main_arg3) (by decide))).symm))
  have w4 : (WA (Proc.devRef .tc Cert.KernelIdeal.main_arg4) : IVec Cert.ReferenceIdeal.S4096x8x7 1) = B (Proc.devRef .tc Cert.ReferenceIdeal.main_arg4) :=
    (Cert.KernelIdeal.Hand.exit_arg4 m c).trans (e4.symm.trans (((Cert.ReferenceIdeal.HostValue.mlp_keeps _ (r := Cert.ReferenceIdeal.main_arg4) (by decide)).trans
      (Cert.ReferenceIdeal.HostValue.idx_keeps L' (r := Cert.ReferenceIdeal.main_arg4) (by decide))).symm))
  -- the logits
  have wo : (WA (Proc.devRef .tc Cert.KernelIdeal.main_v34) : FVec Ideal Cert.ReferenceIdeal.S262144x7 .f32) = B (Proc.devRef .tc Cert.ReferenceIdeal.main_v41) := by
    refine (Cert.KernelIdeal.Hand.exit_out m c).trans ?_
    refine (Cert.KernelIdeal.Hand.outArr_eq m c).trans ?_
    refine Eq.trans ?_ (Cert.ReferenceIdeal.HostValue.logits_buffer L').symm
    rw [Cert.ReferenceIdeal.HostValue.refOut_eq, ← rowStart_eq, ← e0, ← e1, ← e3, ← e5, ← e6, ← e7, ← e8]
  -- the placement
  have ht := tailA_table WA B w21 w18 w3
  have hb := tailA_bcol WA B w21 w18 w3
  have hg := tailA_gcol WA B w21 w18 w3
  have ho : (after kTailA WA (Proc.devRef .tc Cert.KernelIdeal.main_v34) : FVec Ideal Cert.ReferenceIdeal.S262144x7 .f32)
      = after rTailA B (Proc.devRef .tc Cert.ReferenceIdeal.main_v41) := (kTailA_out WA).trans (wo.trans (rTailA_out B).symm)
  have h4 : (after kTailA WA (Proc.devRef .tc Cert.KernelIdeal.main_arg4) : IVec Cert.ReferenceIdeal.S4096x8x7 1)
      = after rTailA B (Proc.devRef .tc Cert.ReferenceIdeal.main_arg4) := (kTailA_arg4 WA).trans (w4.trans (rTailA_arg4 B).symm)
  have fin := tailB_result (after kTailA WA) (after rTailA B)
    (after rTailA B (Proc.devRef .tc Cert.ReferenceIdeal.main_arg4)) (after rTailA B (Proc.devRef .tc Cert.ReferenceIdeal.main_v42))
    (after rTailA B (Proc.devRef .tc Cert.ReferenceIdeal.main_v55)) (after rTailA B (Proc.devRef .tc Cert.ReferenceIdeal.main_v56))
    (after rTailA B (Proc.devRef .tc Cert.ReferenceIdeal.main_v41)) h4 ht hb hg ho rfl rfl rfl rfl rfl
  rw [← kTail_pieces, ← rTail_pieces] at fin
  rw [Cert.ReferenceIdeal.HostValue.after_ops]
  exact fin.symm

end Cert.Proof.Bridge

end
-- ==== Proof.lean ====
/-
  A per-row two-layer perceptron whose rows are routed, by batch and by rank within the batch, into a padded table.

  Both programs compute, from the selection mask and the sorted batch ids, each selected row's rank within its batch and the flag
  "kept" (rank below 8); compute for every row r the logits
      relu( x[r] · W1[:128]  +  global[batch r] · W1[128:]  +  b1 ) · W2 + b2;
  and write the kept rows' logits at (batch, rank) of a [4096, 9, 7] table filled with -1e9, drop slot 8, mask, and lay the table
  out as [4096, 56]. The integer part and the placement are the same host operations in both. They differ in the perceptron:
  the reference gathers the global rows and multiplies them by W1[128:] on the host; the kernel program multiplies the whole
  [4096, 128] global table by W1[128:] once, gathers rows of the [4096, 64] product, and runs the rest in a Pallas kernel over 64
  blocks of 4096 rows with bf16 operands on the matrix unit. Over the extended reals the changes of float format are the identity,
  both products are exact sums, and row ρ of a product is the product of row ρ: so both compute one function of the arguments,
  entry by entry, and neither the order of summation nor finiteness of the inputs is needed.

  The kernel programs' frames are the generated ones. The reference's frame is its run as a straight line of 89 host operations,
  none of which writes an argument. The idealized kernel is the printed program's own text read over the extended reals: nothing
  was rewritten, so there is nothing to preserve.
-/
import proofs.«161554_j670014898684_1_alg».proof.Defs
import proofs.«161554_j670014898684_1_alg».proof.Proof.Gen.Kernel
import proofs.«161554_j670014898684_1_alg».proof.Proof.Gen.Kernel.Frame
import proofs.«161554_j670014898684_1_alg».proof.Proof.Gen.KernelIdeal
import proofs.«161554_j670014898684_1_alg».proof.Proof.Gen.KernelIdeal.Frame
import proofs.«161554_j670014898684_1_alg».proof.Proof.Gen.ReferenceIdeal
import proofs.«161554_j670014898684_1_alg».proof.Proof.Gen.Pre_finite_inputs
import proofs.«161554_j670014898684_1_alg».proof.Proof.RefRun
import proofs.«161554_j670014898684_1_alg».proof.Proof.RefKeeps
import proofs.«161554_j670014898684_1_alg».proof.Proof.KernelRun
import proofs.«161554_j670014898684_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- An argument of the reference ends as launched: no operation of its line writes it. -/
theorem ref_kept (m : (ℓ : Loc Cert.ReferenceIdeal.nD Cert.ReferenceIdeal.τ Cert.ReferenceIdeal.sig) → Buf (Elt Ideal) ℓ)
    (c : Dev Cert.ReferenceIdeal.nD) {r : Ref Cert.ReferenceIdeal.sig .tc}
    (h1 : r ∉ Cert.ReferenceIdeal.HostValue.idxWrites) (h2 : r ∉ Cert.ReferenceIdeal.HostValue.mlpWrites)
    (h3 : r ∉ Cert.ReferenceIdeal.HostValue.tailWrites) :
    after Cert.ReferenceIdeal.HostRun.ops (launchContents m c) (Proc.devRef .tc r) = m ((c.tc : Thread Cert.ReferenceIdeal.nD Cert.ReferenceIdeal.τ).loc r) :=
  Cert.ReferenceIdeal.HostValue.ops_keeps (launchContents m c) h1 h2 h3

/-- The reference runs and leaves its arguments as launched. -/
theorem frame_ri : Cert.frame_ReferenceIdeal := fun m ρ _ =>
  (θ_run Cert.ReferenceIdeal.defs _ _).mono (fun _ h c =>
    ⟨(h c Cert.ReferenceIdeal.main_arg0).trans (ref_kept m c (by decide) (by decide) (by decide)),
      (h c Cert.ReferenceIdeal.main_arg1).trans (ref_kept m c (by decide) (by decide) (by decide)),
      (h c Cert.ReferenceIdeal.main_arg2).trans (ref_kept m c (by decide) (by decide) (by decide)),
      (h c Cert.ReferenceIdeal.main_arg3).trans (ref_kept m c (by decide) (by decide) (by decide)),
      (h c Cert.ReferenceIdeal.main_arg4).trans (ref_kept m c (by decide) (by decide) (by decide)),
      (h c Cert.ReferenceIdeal.main_arg5).trans (ref_kept m c (by decide) (by decide) (by decide)),
      (h c Cert.ReferenceIdeal.main_arg6).trans (ref_kept m c (by decide) (by decide) (by decide)),
      (h c Cert.ReferenceIdeal.main_arg7).trans (ref_kept m c (by decide) (by decide) (by decide)),
      (h c Cert.ReferenceIdeal.main_arg8).trans (ref_kept m c (by decide) (by decide) (by decide))⟩)
    (Cert.ReferenceIdeal.HostRun.run_main (F := Ideal) m ρ)

/-- The ideal pass rewrote no operation: nothing to preserve. -/
theorem preserves : Cert.preserves_Kernel_KernelIdeal := trivial

/-- From memories that agree on the arguments both idealized programs run, and the reference's result buffer ends holding
    what the kernel program's holds. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun r h c => ?_) (Cert.ReferenceIdeal.HostRun.run_main (F := Ideal) m' ρ')
  obtain ⟨e0, e1, e2, e3, e4, e5, e6, e7, e8⟩ := hagree c
  exact ⟨(h c Cert.ReferenceIdeal.main_v61).trans (Cert.Proof.Bridge.result_eq m m' c e0 e1 e2 e3 e4 e5 e6 e7 e8),
    (h c Cert.ReferenceIdeal.main_arg0).trans (ref_kept m' c (by decide) (by decide) (by decide)),
    (h c Cert.ReferenceIdeal.main_arg1).trans (ref_kept m' c (by decide) (by decide) (by decide)),
    (h c Cert.ReferenceIdeal.main_arg2).trans (ref_kept m' c (by decide) (by decide) (by decide)),
    (h c Cert.ReferenceIdeal.main_arg3).trans (ref_kept m' c (by decide) (by decide) (by decide)),
    (h c Cert.ReferenceIdeal.main_arg4).trans (ref_kept m' c (by decide) (by decide) (by decide)),
    (h c Cert.ReferenceIdeal.main_arg5).trans (ref_kept m' c (by decide) (by decide) (by decide)),
    (h c Cert.ReferenceIdeal.main_arg6).trans (ref_kept m' c (by decide) (by decide) (by decide)),
    (h c Cert.ReferenceIdeal.main_arg7).trans (ref_kept m' c (by decide) (by decide) (by decide)),
    (h c Cert.ReferenceIdeal.main_arg8).trans (ref_kept m' c (by decide) (by decide) (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
